-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.sign_bit.Statement Cert.KernelIdeal.S2000x1 .f32
  ∧ IdealRules.sign_bit.Statement Cert.KernelIdeal.S2000x1 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v25_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v25_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x3200000 : Shape := ⟨2, ![2, 3200000]⟩
abbrev S2x32 : Shape := ⟨2, ![2, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg6 : FVec F S32 .f32) (main_arg12 : FVec F S32x1 .f32) (main_arg13 : FVec F S1 .f32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S32x1 .f32 := Host.absf main_arg12
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_cst_24 : FVec F S_ .f32 := constant S_ .f32 0x00000000#32
  let main_v64 : FVec F S32 .f32 := broadcastInDim S32 ![] bcast_S_S32 main_cst_24
  let main_v65 : IVec S32 1 := cmpf .oge main_arg6 main_v64
  let main_c_25 : IVec S_ 1 := constantI S_ 1 1#1
  let main_v66 : IVec S_ 1 := (fun x v => Host.reduce IntOp.andi x v reducesTo_S32_S_d0 h_S_) main_v65 main_c_25
  let main_v67 : IVec S_ 1 := andi main_v63 main_v66
  main_v67

def fn_part2 {F : FTy → Type} [FloatOps F] (main_arg6 : FVec F S32 .f32) (main_arg8 : FVec F S32 .f32) (main_arg9 : FVec F S32x32 .f32) (main_arg10 : FVec F S32 .f32) (main_arg11 : FVec F S32x1 .f32) (main_arg12 : FVec F S32x1 .f32) (main_arg13 : FVec F S1 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg9
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg11
  let main_cst_18 : FVec F S_ .f32 := constant S_ .f32 0x7F800000#32
  let main_v50 : FVec F S32x1 .f32 := broadcastInDim S32x1 ![] bcast_S_S32x1 main_cst_18
  fn_part3 (F := F) main_arg6 main_arg12 main_arg13 main_v48 main_v49 main_v50

def fn_part1 {F : FTy → Type} [FloatOps F] (main_arg5 : FVec F S32 .f32) (main_arg6 : FVec F S32 .f32) (main_arg7 : FVec F S32x32 .f32) (main_arg8 : FVec F S32 .f32) (main_arg9 : FVec F S32x32 .f32) (main_arg10 : FVec F S32 .f32) (main_arg11 : FVec F S32x1 .f32) (main_arg12 : FVec F S32x1 .f32) (main_arg13 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg6 main_arg8 main_arg9 main_arg10 main_arg11 main_arg12 main_arg13 main_v33

def fn {F : FTy → Type} [FloatOps F] (main_arg0 : FVec F S100000x3 .f32) (main_arg1 : IVec S2x3200000 32) (main_arg2 : FVec F S2x32 .f32) (main_arg3 : FVec F S32 .f32) (main_arg4 : FVec F S32 .f32) (main_arg5 : FVec F S32 .f32) (main_arg6 : FVec F S32 .f32) (main_arg7 : FVec F S32x32 .f32) (main_arg8 : FVec F S32 .f32) (main_arg9 : FVec F S32x32 .f32) (main_arg10 : FVec F S32 .f32) (main_arg11 : FVec F S32x1 .f32) (main_arg12 : FVec F S32x1 .f32) (main_arg13 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S2x32 .f32 := Host.absf main_arg2
  let main_cst_0 : FVec F S_ .f32 := constant S_ .f32 0x7F800000#32
  let main_v5 : FVec F S2x32 .f32 := broadcastInDim S2x32 ![] bcast_S_S2x32 main_cst_0
  let main_v6 : IVec S2x32 1 := cmpf .olt main_v4 main_v5
  let main_c_1 : IVec S_ 1 := constantI S_ 1 1#1
  let main_v7 : IVec S_ 1 := (fun x v => Host.reduce IntOp.andi x v reducesTo_S2x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_arg12 main_arg13 main_v13 main_v16
-- ==== Kernel.lean ====
abbrev S100000x3 : Shape := ⟨2, ![100000, 3]⟩
abbrev S2x3200000 : Shape := ⟨2, ![2, 3200000]⟩
abbrev S2x32 : Shape := ⟨2, ![2, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x3 : Shape := ⟨2, ![3200000, 3]⟩
abbrev S1x32 : Shape := ⟨2, ![1, 32]⟩
abbrev S1x1 : Shape := ⟨2, ![1, 1]⟩
abbrev S3200000x32 : Shape := ⟨2, ![3200000, 32]⟩
abbrev S2000x3 : Shape := ⟨2, ![2000, 3]⟩
abbrev S2000x32 : Shape := ⟨2, ![2000, 32]⟩
abbrev S2000 : Shape := ⟨1, ![2000]⟩
abbrev S2000x1 : Shape := ⟨2, ![2000, 1]⟩
abbrev S2000x2 : Shape := ⟨2, ![2000, 2]⟩
abbrev S100000 : Shape := ⟨1, ![100000]⟩
abbrev S100000x1 : Shape := ⟨2, ![100000, 1]⟩

abbrev nBuf : Space → Nat
  | .hbm => 65
  | .vmem => 20
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S2x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S32x1, .f32⟩
  | .hbm, ⟨12, _⟩ => ⟨S32x1, .f32⟩
  | .hbm, ⟨13, _⟩ => ⟨S1, .f32⟩
  | .hbm, ⟨14, _⟩ => ⟨S1x3200000, .i32⟩
  | .hbm, ⟨15, _⟩ => ⟨S3200000, .i32⟩
  | .hbm, ⟨16, _⟩ => ⟨S1x3200000, .i32⟩
  | .hbm, ⟨17, _⟩ => ⟨S3200000, .i32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S3200000x3, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x3, .f32⟩
  | .hbm, ⟨36, _⟩ => ⟨S1x32, .f32⟩
  | .hbm, ⟨37, _⟩ => ⟨S1x32, .f32⟩
  | .hbm, ⟨38, _⟩ => ⟨S1x32, .f32⟩
  | .hbm, ⟨39, _⟩ => ⟨S1x32, .f32⟩
  | .hbm, ⟨40, _⟩ => ⟨S1x32, .f32⟩
  | .hbm, ⟨41, _⟩ => ⟨S1x32, .f32⟩
  | .hbm, ⟨42, _⟩ => ⟨S1x1, .f32⟩
  | .hbm, ⟨43, _⟩ => ⟨S3200000x32, .f32⟩
  | .hbm, ⟨44, _⟩ => ⟨S3200000x3, .f32⟩
  | .hbm, ⟨45, _⟩ => ⟨S_, .f32⟩
  | .hbm, ⟨46, _⟩ => ⟨S100000x3, .f32⟩
  | .hbm, ⟨47, _⟩ => ⟨S3200000x1, .i32⟩
  | .hbm, ⟨48, _⟩ => ⟨S100000x3, .f32⟩
  | .hbm, ⟨49, _⟩ => ⟨S_, .f32⟩
  | .hbm, ⟨50, _⟩ => ⟨S3200000, .f32⟩
  | .hbm, ⟨51, _⟩ => ⟨S_, .f32⟩
  | .hbm, ⟨52, _⟩ => ⟨S100000, .f32⟩
  | .hbm, ⟨53, _⟩ => ⟨S3200000x1, .i32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x3, .f32⟩
  | .hbm, ⟨60, _⟩ => ⟨S100000x3, .f32⟩
  | .hbm, ⟨61, _⟩ => ⟨S_, .f32⟩
  | .hbm, ⟨62, _⟩ => ⟨S100000x3, .f32⟩
  | .hbm, ⟨63, _⟩ => ⟨S100000x3, .f32⟩
  | .hbm, ⟨64, _⟩ => ⟨S100000x3, .f32⟩
  | .local _ .vmem, ⟨0, _⟩ => ⟨S2000x3, .f32⟩
  | .local _ .vmem, ⟨1, _⟩ => ⟨S2000x3, .f32⟩
  | .local _ .vmem, ⟨2, _⟩ => ⟨S2000x3, .f32⟩
  | .local _ .vmem, ⟨3, _⟩ => ⟨S2000x3, .f32⟩
  | .local _ .vmem, ⟨4, _⟩ => ⟨S2x32, .f32⟩
  | .local _ .vmem, ⟨5, _⟩ => ⟨S1x32, .f32⟩
  | .local _ .vmem, ⟨6, _⟩ => ⟨S1x32, .f32⟩
  | .local _ .vmem, ⟨7, _⟩ => ⟨S1x32, .f32⟩
  | .local _ .vmem, ⟨8, _⟩ => ⟨S1x32, .f32⟩
  | .local _ .vmem, ⟨9, _⟩ => ⟨S32x32, .f32⟩
  | .local _ .vmem, ⟨10, _⟩ => ⟨S1x32, .f32⟩
  | .local _ .vmem, ⟨11, _⟩ => ⟨S32x32, .f32⟩
  | .local _ .vmem, ⟨12, _⟩ => ⟨S1x32, .f32⟩
  | .local _ .vmem, ⟨13, _⟩ => ⟨S32x1, .f32⟩
  | .local _ .vmem, ⟨14, _⟩ => ⟨S32x1, .f32⟩
  | .local _ .vmem, ⟨15, _⟩ => ⟨S1x1, .f32⟩
  | .local _ .vmem, ⟨16, _⟩ => ⟨S2000x32, .f32⟩
  | .local _ .vmem, ⟨17, _⟩ => ⟨S2000x32, .f32⟩
  | .local _ .vmem, ⟨18, _⟩ => ⟨S2000x3, .f32⟩
  | .local _ .vmem, ⟨19, _⟩ => ⟨S2000x3, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25_0 : Ref sig .tc := ⟨.hbm, 43, rfl⟩
abbrev main_v25_1 : Ref sig .tc := ⟨.hbm, 44, rfl⟩
abbrev main_cst : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19

abbrev nD : Nat := 1
abbrev τ : Topo := Topo.v7x

variable {F : FTy → Type} [BitOps F]

abbrev grid0 : Pipeline.Grid := ⟨1, ![1600], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2000x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2000x3 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S32_S1x32 : S32.ShapeCasts S1x32
  shapeCasts_S1_S1x1 : S1.ShapeCasts S1x1
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  reduces_S2000x3_S2000 : S2000x3.Reduces [1] S2000
  shapeCasts_S2000_S2000x1 : S2000.ShapeCasts S2000x1
  concatenates_S2000x1_S2000x1_S2000x2_d1 : Shape.Concatenates [S2000x1, S2000x1] S2000x2 1
  inb_S2x32_S2x32_0_0 : ∀ a, (![0, 0] : Fin 2 → Nat) a + S2x32.size a ≤ S2x32.size a
  h_S2x32 : 0 < S2x32.numel
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  broadcasts_S2000x1_S2000x32 : S2000x1.Broadcasts S2000x32
  broadcasts_S2000x1_S2000x3 : S2000x1.Broadcasts S2000x3
  inb_S2000x32_S2000x32_0_0 : ∀ a, (![0, 0] : Fin 2 → Nat) a + S2000x32.size a ≤ S2000x32.size a
  h_S2000x32 : 0 < S2000x32.numel
  bcast_S_S100000x3 : S_.BroadcastsInDim S100000x3 (![] : Fin 0 → Fin S100000x3.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  gather_S100000x3_S3200000x1_S3200000x3_1_0_n_n_0_1_13_wf : GatherDims.WF S100000x3 S3200000x1 S3200000x3 [1] [0] [] [0] [] 1 ![1, 3]
  dot_S2000x2_S2x32_S2000x32_1_0_0_1_n_n_wf : DotDims.WF S2000x2 S2x32 S2000x32 [1] [0] [0] [1] [] []
  dot_S2000x32_S32x32_S2000x32_1_0_0_1_n_n_wf : DotDims.WF S2000x32 S32x32 S2000x32 [1] [0] [0] [1] [] []
  dot_S2000x32_S32x1_S2000x1_1_0_0_1_n_n_wf : DotDims.WF S2000x32 S32x1 S2000x1 [1] [0] [0] [1] [] []
  scatter_S100000x3_S3200000x1_S3200000x3_1_0_0_1_wf : ScatterDims.WF S100000x3 S3200000x1 S3200000x3 [1] [0] [0] 1
  scatter_S100000_S3200000x1_S3200000_n_0_0_1_wf : ScatterDims.WF S100000 S3200000x1 S3200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3.size a ≤ S3200000x3.size a
  hwx0_0 : ∀ i : grid0.Coords, EltTy.bits .f32 = 32 ∨ (Rect.block (s := S3200000x3) S2000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x3.size a ≤ S3200000x3.size a
  hwx0_1 : ∀ i : grid0.Coords, EltTy.bits .f32 = 32 ∨ (Rect.block (s := S3200000x3) S2000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x32.size a ≤ S2x32.size a
  hwx0_2 : ∀ i : grid0.Coords, EltTy.bits .f32 = 32 ∨ (Rect.block (s := S2x32) S2x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .f32 = 32 ∨ (Rect.block (s := S32x32) S32x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x32.size a ≤ S32x32.size a
  hwx0_9 : ∀ i : grid0.Coords, EltTy.bits .f32 = 32 ∨ (Rect.block (s := S32x32) S32x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x1.size a ≤ S32x1.size a
  hwx0_11 : ∀ i : grid0.Coords, EltTy.bits .f32 = 32 ∨ (Rect.block (s := S32x1) S32x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32x1.size a ≤ S32x1.size a
  hwx0_12 : ∀ i : grid0.Coords, EltTy.bits .f32 = 32 ∨ (Rect.block (s := S32x1) S32x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x32.size a ≤ S3200000x32.size a
  hwx0_14 : ∀ i : grid0.Coords, EltTy.bits .f32 = 32 ∨ (Rect.block (s := S3200000x32) S2000x32.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2000x3.size a ≤ S3200000x3.size a
  hwx0_15 : ∀ i : grid0.Coords, EltTy.bits .f32 = 32 ∨ (Rect.block (s := S3200000x3) S2000x3.size (cc0_transform_15 i) (hinb0_15 i)).WholeWords (EltTy.packing .f32)

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def dot_S2000x2_S2x32_S2000x32_1_0_0_1_n_n : DotDims S2000x2 S2x32 S2000x32 where
  lhsContracting := [1]
  rhsContracting := [0]
  lhsNonContracting := [0]
  rhsNonContracting := [1]
  lhsBatch := []
  rhsBatch := []
  wf := dot_S2000x2_S2x32_S2000x32_1_0_0_1_n_n_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def dot_S2000x32_S32x1_S2000x1_1_0_0_1_n_n : DotDims S2000x32 S32x1 S2000x1 where
  lhsContracting := [1]
  rhsContracting := [0]
  lhsNonContracting := [0]
  rhsNonContracting := [1]
  lhsBatch := []
  rhsBatch := []
  wf := dot_S2000x32_S32x1_S2000x1_1_0_0_1_n_n_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

abbrev win0_0 : Pipeline.Window sig grid0 :=
  Pipeline.Window.ofSpec (Memref.whole main_v10) S2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S32x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S32x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S32x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v24) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v25_0) S2000x32.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v25_1) S2000x3.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S100000x3 : Shape := ⟨2, ![100000, 3]⟩
abbrev S2x3200000 : Shape := ⟨2, ![2, 3200000]⟩
abbrev S2x32 : Shape := ⟨2, ![2, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x3 : Shape := ⟨2, ![3200000, 3]⟩
abbrev S3200000x2 : Shape := ⟨2, ![3200000, 2]⟩
abbrev S3200000x32 : Shape := ⟨2, ![3200000, 32]⟩
abbrev S1x32 : Shape := ⟨2, ![1, 32]⟩
abbrev S1x1 : Shape := ⟨2, ![1, 1]⟩
abbrev S100000 : Shape := ⟨1, ![100000]⟩
abbrev S100000x1 : Shape := ⟨2, ![100000, 1]⟩

abbrev nBuf : Space → Nat
  | .hbm => 131
  | .vmem => 0
  | .smem => 0
  | _ => 0

abbrev hbmTy0_0 (i : Nat) : BufTy := match i % 128 with
  | 0 => ⟨S100000x3, .f32⟩
  | 1 => ⟨S2x3200000, .i32⟩
  | 2 => ⟨S2x32, .f32⟩
  | 3 => ⟨S32, .f32⟩
  | 4 => ⟨S32, .f32⟩
  | 5 => ⟨S32, .f32⟩
  | 6 => ⟨S32, .f32⟩
  | 7 => ⟨S32x32, .f32⟩
  | 8 => ⟨S32, .f32⟩
  | 9 => ⟨S32x32, .f32⟩
  | 10 => ⟨S32, .f32⟩
  | 11 => ⟨S32x1, .f32⟩
  | 12 => ⟨S32x1, .f32⟩
  | 13 => ⟨S1, .f32⟩
  | 14 => ⟨S1x3200000, .i32⟩
  | 15 => ⟨S3200000, .i32⟩
  | 16 => ⟨S1x3200000, .i32⟩
  | 17 => ⟨S3200000, .i32⟩
  | 18 => ⟨S_, .i32⟩
  | 19 => ⟨S3200000, .i32⟩
  | 20 => ⟨S3200000, .i1⟩
  | 21 => ⟨S_, .i32⟩
  | 22 => ⟨S3200000, .i32⟩
  | 23 => ⟨S3200000, .i32⟩
  | 24 => ⟨S3200000, .i32⟩
  | 25 => ⟨S3200000x1, .i32⟩
  | 26 => ⟨S3200000x3, .f32⟩
  | 27 => ⟨S_, .i32⟩
  | 28 => ⟨S3200000, .i32⟩
  | 29 => ⟨S3200000, .i1⟩
  | 30 => ⟨S_, .i32⟩
  | 31 => ⟨S3200000, .i32⟩
  | 32 => ⟨S3200000, .i32⟩
  | 33 => ⟨S3200000, .i32⟩
  | 34 => ⟨S3200000x1, .i32⟩
  | 35 => ⟨S3200000x3, .f32⟩
  | 36 => ⟨S3200000x3, .f32⟩
  | 37 => ⟨S3200000x3, .f32⟩
  | 38 => ⟨S_, .f32⟩
  | 39 => ⟨S3200000, .f32⟩
  | 40 => ⟨S3200000x1, .f32⟩
  | 41 => ⟨S3200000x1, .f32⟩
  | 42 => ⟨S3200000x1, .f32⟩
  | 43 => ⟨S3200000x1, .f32⟩
  | 44 => ⟨S3200000x1, .f32⟩
  | 45 => ⟨S3200000x3, .f32⟩
  | 46 => ⟨S_, .f32⟩
  | 47 => ⟨S3200000, .f32⟩
  | 48 => ⟨S3200000x1, .f32⟩
  | 49 => ⟨S3200000x1, .f32⟩
  | 50 => ⟨S3200000x1, .f32⟩
  | 51 => ⟨S3200000x1, .f32⟩
  | 52 => ⟨S3200000x1, .f32⟩
  | 53 => ⟨S3200000x2, .f32⟩
  | 54 => ⟨S3200000x32, .f32⟩
  | 55 => ⟨S1x32, .f32⟩
  | 56 => ⟨S3200000x32, .f32⟩
  | 57 => ⟨S3200000x32, .f32⟩
  | 58 => ⟨S_, .f32⟩
  | 59 => ⟨S32, .f32⟩
  | 60 => ⟨S32, .f32⟩
  | 61 => ⟨S32, .f32⟩
  | 62 => ⟨S32, .f32⟩
  | 63 => ⟨S1x32, .f32⟩
  | 64 => ⟨S3200000x32, .f32⟩
  | 65 => ⟨S3200000x32, .f32⟩
  | 66 => ⟨S1x32, .f32⟩
  | 67 => ⟨S3200000x32, .f32⟩
  | 68 => ⟨S3200000x32, .f32⟩
  | 69 => ⟨S_, .f32⟩
  | 70 => ⟨S3200000x32, .f32⟩
  | 71 => ⟨S3200000x32, .f32⟩
  | 72 => ⟨S3200000x32, .f32⟩
  | 73 => ⟨S1x32, .f32⟩
  | 74 => ⟨S3200000x32, .f32⟩
  | 75 => ⟨S3200000x32, .f32⟩
  | 76 => ⟨S_, .f32⟩
  | 77 => ⟨S3200000x32, .f32⟩
  | 78 => ⟨S3200000x32, .f32⟩
  | 79 => ⟨S3200000x1, .f32⟩
  | 80 => ⟨S1x1, .f32⟩
  | 81 => ⟨S3200000x1, .f32⟩
  | 82 => ⟨S3200000x1, .f32⟩
  | 83 => ⟨S3200000x1, .f32⟩
  | 84 => ⟨S3200000x1, .f32⟩
  | 85 => ⟨S_, .f32⟩
  | 86 => ⟨S3200000x1, .f32⟩
  | 87 => ⟨S3200000x1, .f32⟩
  | 88 => ⟨S_, .f32⟩
  | 89 => ⟨S3200000x1, .f32⟩
  | 90 => ⟨S3200000x1, .f32⟩
  | 91 => ⟨S3200000x32, .f32⟩
  | 92 => ⟨S3200000x32, .f32⟩
  | 93 => ⟨S3200000x32, .f32⟩
  | 94 => ⟨S1x32, .f32⟩
  | 95 => ⟨S3200000x32, .f32⟩
  | 96 => ⟨S3200000x32, .f32⟩
  | 97 => ⟨S_, .f32⟩
  | 98 => ⟨S3200000x32, .f32⟩
  | 99 => ⟨S3200000x32, .f32⟩
  | 100 => ⟨S3200000x1, .f32⟩
  | 101 => ⟨S3200000x3, .f32⟩
  | 102 => ⟨S3200000x3, .f32⟩
  | 103 => ⟨S_, .f32⟩
  | 104 => ⟨S_, .f32⟩
  | 105 => ⟨S_, .f32⟩
  | 106 => ⟨S3200000x3, .f32⟩
  | 107 => ⟨S3200000x3, .f32⟩
  | 108 => ⟨S_, .f32⟩
  | 109 => ⟨S3200000x3, .f32⟩
  | 110 => ⟨S3200000x3, .f32⟩
  | 111 => ⟨S_, .f32⟩
  | 112 => ⟨S100000x3, .f32⟩
  | 113 => ⟨S3200000x1, .i32⟩
  | 114 => ⟨S100000x3, .f32⟩
  | 115 => ⟨S_, .f32⟩
  | 116 => ⟨S3200000, .f32⟩
  | 117 => ⟨S_, .f32⟩
  | 118 => ⟨S100000, .f32⟩
  | 119 => ⟨S3200000x1, .i32⟩
  | 120 => ⟨S100000, .f32⟩
  | 121 => ⟨S_, .f32⟩
  | 122 => ⟨S100000, .f32⟩
  | 123 => ⟨S100000, .f32⟩
  | 124 => ⟨S100000x1, .f32⟩
  | 125 => ⟨S100000x3, .f32⟩
  | 126 => ⟨S100000x3, .f32⟩
  | 127 => ⟨S_, .f32⟩
  | _ => ⟨S100000x3, .f32⟩

abbrev hbmTy0_1 (i : Nat) : BufTy := match i % 128 with
  | 0 => ⟨S100000x3, .f32⟩
  | 1 => ⟨S100000x3, .f32⟩
  | 2 => ⟨S100000x3, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call1_cst : Ref sig .tc := ⟨.hbm, 76, rfl⟩
abbrev main_call1_v0 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_5 : Ref sig .tc := ⟨.hbm, 85, rfl⟩
abbrev main_v60 : Ref sig .tc := ⟨.hbm, 86, rfl⟩
abbrev main_v61 : Ref sig .tc := ⟨.hbm, 87, rfl⟩
abbrev main_cst_6 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_call2_cst : Ref sig .tc := ⟨.hbm, 97, rfl⟩
abbrev main_call2_v0 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_7 : Ref sig .tc := ⟨.hbm, 103, rfl⟩
abbrev main_cst_8 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_v74 : Ref sig .tc := ⟨.hbm, 110, rfl⟩
abbrev main_cst_9 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_10 : Ref sig .tc := ⟨.hbm, 115, rfl⟩
abbrev main_v78 : Ref sig .tc := ⟨.hbm, 116, rfl⟩
abbrev main_cst_11 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_12 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_13 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x3_S3200000_d1 : S3200000x3.ReducesTo [1] S3200000
  h_S_ : 0 < S_.numel
  concatenates_S3200000x1_S3200000x1_S3200000x2_d1 : Shape.Concatenates [S3200000x1, S3200000x1] S3200000x2 1
  bcast_S32_S1x32_1 : S32.BroadcastsInDim S1x32 (![1] : Fin 1 → Fin S1x32.rank)
  bcast_S1x32_S3200000x32_0_1 : S1x32.BroadcastsInDim S3200000x32 (![0, 1] : Fin 2 → Fin S3200000x32.rank)
  bcast_S_S32 : S_.BroadcastsInDim S32 (![] : Fin 0 → Fin S32.rank)
  bcast_S_S3200000x32 : S_.BroadcastsInDim S3200000x32 (![] : Fin 0 → Fin S3200000x32.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  bcast_S_S3200000x1 : S_.BroadcastsInDim S3200000x1 (![] : Fin 0 → Fin S3200000x1.rank)
  bcast_S3200000x1_S3200000x32_0_1 : S3200000x1.BroadcastsInDim S3200000x32 (![0, 1] : Fin 2 → Fin S3200000x32.rank)
  bcast_S3200000x1_S3200000x3_0_1 : S3200000x1.BroadcastsInDim S3200000x3 (![0, 1] : Fin 2 → Fin S3200000x3.rank)
  bcast_S_S3200000x3 : S_.BroadcastsInDim S3200000x3 (![] : Fin 0 → Fin S3200000x3.rank)
  bcast_S_S100000x3 : S_.BroadcastsInDim S100000x3 (![] : Fin 0 → Fin S100000x3.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  gather_S100000x3_S3200000x1_S3200000x3_1_0_n_n_0_1_13_wf : GatherDims.WF S100000x3 S3200000x1 S3200000x3 [1] [0] [] [0] [] 1 ![1, 3]
  dot_S3200000x2_S2x32_S3200000x32_1_0_0_1_n_n_wf : DotDims.WF S3200000x2 S2x32 S3200000x32 [1] [0] [0] [1] [] []
  dot_S3200000x32_S32x32_S3200000x32_1_0_0_1_n_n_wf : DotDims.WF S3200000x32 S32x32 S3200000x32 [1] [0] [0] [1] [] []
  dot_S3200000x32_S32x1_S3200000x1_1_0_0_1_n_n_wf : DotDims.WF S3200000x32 S32x1 S3200000x1 [1] [0] [0] [1] [] []
  scatter_S100000x3_S3200000x1_S3200000x3_1_0_0_1_wf : ScatterDims.WF S100000x3 S3200000x1 S3200000x3 [1] [0] [0] 1
  scatter_S100000_S3200000x1_S3200000_n_0_0_1_wf : ScatterDims.WF S100000 S3200000x1 S3200000 [] [0] [0] 1

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def dot_S3200000x2_S2x32_S3200000x32_1_0_0_1_n_n : DotDims S3200000x2 S2x32 S3200000x32 where
  lhsContracting := [1]
  rhsContracting := [0]
  lhsNonContracting := [0]
  rhsNonContracting := [1]
  lhsBatch := []
  rhsBatch := []
  wf := dot_S3200000x2_S2x32_S3200000x32_1_0_0_1_n_n_wf
def dot_S3200000x32_S32x32_S3200000x32_1_0_0_1_n_n : DotDims S3200000x32 S32x32 S3200000x32 where
  lhsContracting := [1]
  rhsContracting := [0]
  lhsNonContracting := [0]
  rhsNonContracting := [1]
  lhsBatch := []
  rhsBatch := []
  wf := dot_S3200000x32_S32x32_S3200000x32_1_0_0_1_n_n_wf
def dot_S3200000x32_S32x1_S3200000x1_1_0_0_1_n_n : DotDims S3200000x32 S32x1 S3200000x1 where
  lhsContracting := [1]
  rhsContracting := [0]
  lhsNonContracting := [0]
  rhsNonContracting := [1]
  lhsBatch := []
  rhsBatch := []
  wf := dot_S3200000x32_S32x1_S3200000x1_1_0_0_1_n_n_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

class Facts : Prop extends Facts₀ where

variable [Facts]
-- ==== Proof.EdgeSpec.lean ====
/-
  The edge layer both programs compute, as plain functions of extended reals.

  For an edge with endpoint coordinates a, b (three numbers each) the layer forms two invariants, the squared
  distance Σ_d (a_d - b_d)² and the inner product Σ_d a_d b_d, squashes each by ψ(t) = sign t · log(1 + |t|), and feeds
  the pair through: a linear map to 32 features; an affine normalisation (h - mean) · scale + shift; max(·, 0); a linear
  map with bias and max(·, 0); a scalar gate, the logistic function of one more linear map with bias, which multiplies
  the 32 features (the edge's MESSAGE); then, from the message, a linear map with bias, max(·, 0), a linear map to one
  number φ, and the coordinate UPDATE clamp((a_d - b_d) · φ) to [-100, 100].

  The two programs differ in one spelling only: the per-feature scale is g · (v + ε)^(-1/2) in one and
  g / √(v + ε) in the other. They are kept apart here (`scaleK`, `scaleR`); that they agree where 0 ≤ v is a separate
  statement.
-/
import Idealize.ShloMosaic.PureOps.Ideal
import Idealize.ShloMosaic.Lib.ValueIdx

noncomputable section

namespace Cert.Edge

open Idealize.ShloMosaic Idealize.ShloMosaic.ValueIdx

/-- ψ(t) = sign t · log(1 + |t|), with |t| written max t (-t). -/
def psi (t : EReal) : EReal := Ideal.sign t * Ideal.log1p (max t (-t))

/-- The ε of the normalisation, the lower and the upper clamp bound: the single-precision words both programs carry. -/
def eps : EReal := Ideal.ofBits .f32 0x3727C5AC#32
def lo : EReal := Ideal.ofBits .f32 0xC2C80000#32
def hi : EReal := Ideal.ofBits .f32 0x42C80000#32

/-- The two squashed invariants of an edge: index 0 the squared distance, index 1 the inner product. -/
def feat (a b : Fin 3 → EReal) (k : Fin 2) : EReal :=
  if k = 0 then psi (∑ d : Fin 3, (a d - b d) * (a d - b d)) else psi (∑ d : Fin 3, a d * b d)

/-- The first linear map: 2 invariants to 32 features. -/
def lin1 (a b : Fin 3 → EReal) (W1 : Fin 2 → Fin 32 → EReal) (j : Fin 32) : EReal :=
  ∑ k : Fin 2, feat a b k * W1 k j

/-- The normalisation's scale for gain g and variance v: as a product with the inverse square root … -/
def scaleK (g v : EReal) : EReal := g * Ideal.rsqrt (v + eps)
/-- … and as a quotient by the square root. -/
def scaleR (g v : EReal) : EReal := Ideal.div g (Ideal.sqrt (v + eps))

/-- Normalise, shift, max with 0. -/
def hid1 (h mean sc beta : Fin 32 → EReal) (k : Fin 32) : EReal := max ((h k - mean k) * sc k + beta k) 0

/-- Linear map with bias, max with 0. -/
def hid2 (h1 : Fin 32 → EReal) (W2 : Fin 32 → Fin 32 → EReal) (b2 : Fin 32 → EReal) (k : Fin 32) : EReal :=
  max ((∑ l : Fin 32, h1 l * W2 l k) + b2 k) 0

/-- The gate: the logistic function of a linear form with bias. -/
def gate (h2 : Fin 32 → EReal) (W5 : Fin 32 → EReal) (b5 : EReal) : EReal :=
  Ideal.logistic ((∑ l : Fin 32, h2 l * W5 l) + b5)

/-- The message of an edge from its first-layer features h. -/
def msg (h mean sc beta : Fin 32 → EReal) (W2 : Fin 32 → Fin 32 → EReal) (b2 : Fin 32 → EReal) (W5 : Fin 32 → EReal)
    (b5 : EReal) (j : Fin 32) : EReal :=
  hid2 (hid1 h mean sc beta) W2 b2 j * gate (hid2 (hid1 h mean sc beta) W2 b2) W5 b5

/-- The scalar φ of an edge from its message. -/
def phi (mrow : Fin 32 → EReal) (W3 : Fin 32 → Fin 32 → EReal) (b3 : Fin 32 → EReal) (W4 : Fin 32 → EReal) : EReal :=
  ∑ l : Fin 32, max ((∑ l' : Fin 32, mrow l' * W3 l' l) + b3 l) 0 * W4 l

/-- The clamped coordinate update of an edge from its coordinate difference and its message. -/
def upd (dx : Fin 3 → EReal) (mrow : Fin 32 → EReal) (W3 : Fin 32 → Fin 32 → EReal) (b3 : Fin 32 → EReal)
    (W4 : Fin 32 → EReal) (d : Fin 3) : EReal :=
  min hi (max lo (dx d * phi mrow W3 b3 W4))

/-! ## The same over whole arrays -/

/-- Row e of a two-axis array, the array as a matrix, a one-axis array as a vector, a one-column array as a vector. -/
def row {a b : ℕ} (X : FVec Ideal ⟨2, ![a, b]⟩ .f32) (e : Fin a) : Fin b → EReal := fun d => X (ix2 e d)
def mat {a b : ℕ} (X : FVec Ideal ⟨2, ![a, b]⟩ .f32) : Fin a → Fin b → EReal := fun l k => X (ix2 l k)
def vec {a : ℕ} (x : FVec Ideal ⟨1, ![a]⟩ .f32) : Fin a → EReal := fun k => x (ix1 k)
def col {a : ℕ} (X : FVec Ideal ⟨2, ![a, 1]⟩ .f32) : Fin a → EReal := fun l => X (ix2 l 0)

/-- The message of edge e, feature j, from the two gathered coordinate arrays and the layer's parameters; `sc` is the
    spelling of the scale. -/
def msgAt (sc : EReal → EReal → EReal) (XI XJ : FVec Ideal ⟨2, ![3200000, 3]⟩ .f32) (W1 : FVec Ideal ⟨2, ![2, 32]⟩ .f32)
    (g beta mean var : FVec Ideal ⟨1, ![32]⟩ .f32) (W2 : FVec Ideal ⟨2, ![32, 32]⟩ .f32) (b2 : FVec Ideal ⟨1, ![32]⟩ .f32)
    (W5 : FVec Ideal ⟨2, ![32, 1]⟩ .f32) (b5 : FVec Ideal ⟨1, ![1]⟩ .f32) (e : Fin 3200000) (j : Fin 32) : EReal :=
  msg (lin1 (row XI e) (row XJ e) (mat W1)) (vec mean) (fun k => sc (vec g k) (vec var k)) (vec beta) (mat W2) (vec b2)
    (col W5) (b5 (ix1 0)) j

/-- The coordinate update of edge e, coordinate d. -/
def updAt (sc : EReal → EReal → EReal) (XI XJ : FVec Ideal ⟨2, ![3200000, 3]⟩ .f32) (W1 : FVec Ideal ⟨2, ![2, 32]⟩ .f32)
    (g beta mean var : FVec Ideal ⟨1, ![32]⟩ .f32) (W2 : FVec Ideal ⟨2, ![32, 32]⟩ .f32) (b2 : FVec Ideal ⟨1, ![32]⟩ .f32)
    (W3 : FVec Ideal ⟨2, ![32, 32]⟩ .f32) (b3 : FVec Ideal ⟨1, ![32]⟩ .f32) (W4 W5 : FVec Ideal ⟨2, ![32, 1]⟩ .f32)
    (b5 : FVec Ideal ⟨1, ![1]⟩ .f32) (e : Fin 3200000) (d : Fin 3) : EReal :=
  upd (fun d' => row XI e d' - row XJ e d') (msgAt sc XI XJ W1 g beta mean var W2 b2 W5 b5 e) (mat W3) (vec b3) (col W4) d

end Cert.Edge

end
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.LibColumnCast.lean ====
/-
  A vector viewed as a column: a length-a array cast to shape a x 1 (what a row reduction that keeps its axis produces)
  holds, at (p, 0), the vector's entry p.  The companion of the library's leading-unit-axis casts, with the unit axis
  trailing.
-/
import Idealize.ShloMosaic.Lib.Pipeline.Value
import Idealize.ShloMosaic.Lib.ValueLayout

namespace Idealize.ShloMosaic.ValueIdx

open Idealize.ShloMosaic

variable {α : Type}

/-- A length-a vector cast to an a x 1 column reads, at (p, u), the vector at p, whatever the unit coordinate u. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.LibColumnBroadcast.lean ====
/-
  One column broadcast over many: a `[a, 1]` array broadcast to `[a, b]` read at an index. The companion of the
  library's row form (one `[1, b]` row broadcast over `a` rows): there the unit axis is the leading one, here
  the trailing one.
-/
import Idealize.ShloMosaic.Lib.ValueLayout

namespace Idealize.ShloMosaic.ValueIdx

open Idealize.ShloMosaic

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelRowsA.lean ====
/-
  One row of a block, first half: the difference of the two endpoint rows, and the first linear layer (the two squashed
  invariants of the row times the 2 x 32 weights), read off the kernel body's arithmetic at row p of the block.
-/
import proofs.«161814_j936302870591_1_alg».proof.Proof.Gen.KernelIdeal.Skeleton
import proofs.«161814_j936302870591_1_alg».proof.Proof.EdgeSpec
import proofs.«161814_j936302870591_1_alg».proof.Proof.LibPlainDot
import proofs.«161814_j936302870591_1_alg».proof.Proof.LibColumnCast
import proofs.«161814_j936302870591_1_alg».proof.Proof.LibColumnBroadcast
import Idealize.ShloMosaic.PureOps.Ideal.Laws
import Idealize.ShloMosaic.Lib.Pipeline.Value
import Idealize.ShloMosaic.Lib.ValueLayout

noncomputable section

namespace Cert.KernelIdeal.Rows

open Cert.KernelIdeal Cert.KernelIdeal.Gen Cert.Edge Idealize.ShloMosaic Idealize.ShloMosaic.ValueIdx

/-- The two identity casts: a 2000 x 3 block cast to its own shape is itself. -/
theorem pay2_eq (x : Vec Ideal S2000x3 .f32) : k0_pay2 (F := Ideal) x = x := shapeCast_self x _
theorem pay3_eq (x : Vec Ideal S2000x3 .f32) : k0_pay3 (F := Ideal) x = x := shapeCast_self x _

/-- The body's coordinate difference at row p, coordinate d. -/
theorem pay4_at (x0 x1 : Vec Ideal S2000x3 .f32) (p : Fin 2000) (d : Fin 3) :
    k0_pay4 (F := Ideal) x0 x1 (ix2 p d) = row x0 p d - row x1 p d := by
  show k0_pay2 (F := Ideal) x0 (ix2 p d) - k0_pay3 (F := Ideal) x1 (ix2 p d) = _
  rw [pay2_eq, pay3_eq]
  rfl

/-- The sum along row p of a 2000 x 3 block: the lane reduction over axis 1 read at p. -/
theorem rowsum_at (v : FVec Ideal S2000x3 .f32) (h : S2000x3.Reduces [1] S2000) (hφ : FKind.Formats .f32)
    (hacc : (0x00000000#32 : BitVec 32) = FKind.add.neutral .f32 hφ) (p : Fin 2000) :
    multiReduction .add [1] S2000 v 0x00000000#32 h hφ hacc (ix1 p) = ∑ d : Fin 3, v (ix2 p d) := by
  refine (Ideal.multiReduction_add_single v 0x00000000#32 h hφ hacc (ix1 p)).trans ?_
  show ∑ d : Fin 3, v (h.lift (ix1 p) d) = _
  refine Finset.sum_congr rfl fun d _ => congrArg v ?_
  funext a
  refine Fin.ext ?_
  match a with
  | ⟨0, _⟩ => rfl
  | ⟨1, _⟩ => rfl

/-- The row sum kept as a column: at (p, u) the sum of row p. -/
theorem rowsum_col_at (v : FVec Ideal S2000x3 .f32) (h : S2000x3.Reduces [1] S2000) (hφ : FKind.Formats .f32)
    (hacc : (0x00000000#32 : BitVec 32) = FKind.add.neutral .f32 hφ) (hc : S2000.ShapeCasts S2000x1) (p : Fin 2000) (u : Fin 1) :
    shapeCast S2000x1 (multiReduction .add [1] S2000 v 0x00000000#32 h hφ hacc) hc (ix2 p u) = ∑ d : Fin 3, v (ix2 p d) :=
  (shapeCast_a_a1_apply _ hc p u).trans (rowsum_at v h hφ hacc p)

/-- The squashing of a column, read at an entry t: the body's sign term (1 carrying t's sign where |t| exceeds zero, else
    t itself) is sign t, and its product with log(1 + |t|), |t| being max t (-t), is ψ(t). -/
theorem squash_at (c : FVec Ideal S2000x1 .f32) (i : S2000x1.Idx) :
    mulf
      (select (cmpf .ogt (absf c) (broadcast S2000x1 (Scalar.ofBits .f32 0x00000000#32)))
        (select (cmpf .olt c (constant S2000x1 .f32 0x00000000#32)) (constant S2000x1 .f32 0xBF800000#32)
          (constant S2000x1 .f32 0x3F800000#32)) c)
      (log1p (absf c)) i = psi (c i) :=
  congrArg (· * Ideal.log1p (max (c i) (-(c i)))) (Ideal.jnp_sign_eq_sign_f32 (c i))

/-- Two columns side by side: column 0 of the 2000 x 2 block is the first piece, column 1 the second. -/
theorem beside_at (a b : FVec Ideal S2000x1 .f32) (h : Shape.Concatenates [S2000x1, S2000x1] S2000x2 1) (p : Fin 2000)
    (k : Fin 2) :
    concatenate S2000x2 1 [⟨S2000x1, a⟩, ⟨S2000x1, b⟩] h (ix2 p k) = if k = 0 then a (ix2 p 0) else b (ix2 p 0) := by
  match k with
  | ⟨0, _⟩ =>
    refine (concatenate_pair_apply_left (1 : Fin 2) a b h (ix2 p (0 : Fin 2)) rfl (ix2 p (0 : Fin 1)) fun bb => ?_).trans ?_
    · match bb with
      | ⟨0, _⟩ => rfl
      | ⟨1, _⟩ => rfl
    · rfl
  | ⟨1, _⟩ =>
    refine (concatenate_pair_apply_right (1 : Fin 2) a b h (ix2 p (1 : Fin 2)) rfl rfl (ix2 p (0 : Fin 1)) (fun bb hb => ?_) rfl).trans ?_
    · match bb with
      | ⟨0, _⟩ => rfl
      | ⟨1, _⟩ => exact absurd rfl hb
    · rfl

/-- The 2000 x 2 by 2 x 32 product into a zero accumulator, its operands narrowed to sixteen bits first (no change at the
    exact instance), read at (p, j): the sum over the two columns of the left operand. -/
theorem first_layer_at (l : FVec Ideal S2000x2 .f32) (r : FVec Ideal S2x32 .f32) (hb : FTy.bits .bf16 < FTy.bits .f32)
    (p : Fin 2000) (j : Fin 32) :
    matmul dot_S2000x2_S2x32_S2000x32_1_0_0_1_n_n none (truncf .bf16 l hb) (truncf .bf16 r hb)
        (constant S2000x32 .f32 0x00000000#32) (ix2 p j)
      = ∑ k : Fin 2, l (ix2 p k) * r (ix2 k j) :=
  plain_matmul_zero_apply (M := 2000) (K := 2) (N := 32) (φ₁ := .bf16) (φ₂ := .bf16) none (truncf .bf16 l hb) (truncf .bf16 r hb)
    (ix2 p j)

/-- The body's first linear layer at row p, feature j. -/
theorem pay5_at (x0 x1 : Vec Ideal S2000x3 .f32) (w1 : Vec Ideal S2x32 .f32) (p : Fin 2000) (j : Fin 32) :
    k0_pay5 (F := Ideal) x0 x1 w1 (ix2 p j) = lin1 (row x0 p) (row x1 p) (mat w1) j := by
  unfold k0_pay5
  refine (first_layer_at _ _ _ p j).trans ?_
  unfold lin1
  refine Finset.sum_congr rfl fun k _ => congrArg₂ (· * ·) ?_ rfl
  refine (beside_at _ _ _ p k).trans ?_
  unfold feat
  by_cases hk : k = 0
  · rw [if_pos hk, if_pos hk]
    refine (squash_at _ _).trans (congrArg psi ?_)
    refine (rowsum_col_at _ _ _ _ _ p 0).trans ?_
    exact Finset.sum_congr rfl fun d _ => congrArg₂ (· * ·) (pay4_at x0 x1 p d) (pay4_at x0 x1 p d)
  · rw [if_neg hk, if_neg hk]
    refine (squash_at _ _).trans (congrArg psi ?_)
    refine (rowsum_col_at _ _ _ _ _ p 0).trans ?_
    exact Finset.sum_congr rfl fun d _ =>
      congrArg₂ (· * ·) (congrFun (pay2_eq x0) (ix2 p d)) (congrFun (pay3_eq x1) (ix2 p d))

end Cert.KernelIdeal.Rows

end
-- ==== Proof.KernelRowsB.lean ====
/-
  One row of a block, second half: the message (normalisation, two layers, the gate) from the row's first-layer
  features, and the clamped coordinate update from the row's difference and message, read off the kernel body's
  arithmetic at row p of the block. The normalisation parameters and the biases arrive as 1 x 32 (1 x 1) blocks.
-/
import proofs.«161814_j936302870591_1_alg».proof.Proof.Gen.KernelIdeal.Skeleton
import proofs.«161814_j936302870591_1_alg».proof.Proof.EdgeSpec
import proofs.«161814_j936302870591_1_alg».proof.Proof.LibPlainDot
import proofs.«161814_j936302870591_1_alg».proof.Proof.LibColumnCast
import proofs.«161814_j936302870591_1_alg».proof.Proof.LibColumnBroadcast
import Idealize.ShloMosaic.PureOps.Ideal.Laws
import Idealize.ShloMosaic.Lib.Pipeline.Value
import Idealize.ShloMosaic.Lib.ValueLayout

noncomputable section

namespace Cert.KernelIdeal.Rows

open Cert.KernelIdeal Cert.KernelIdeal.Gen Cert.Edge Idealize.ShloMosaic Idealize.ShloMosaic.ValueIdx

/-! ## The operations that are not entry-by-entry, read at an entry

Every other operation of the two stretches (sum, difference, product, maximum, minimum, a splat scalar, the change of
format, which is the identity on extended reals) acts entry by entry. -/

/-- Rows by columns, 2000 x 32 by 32 x 32, into the zero accumulator: the body's dimension numbers are those of the plain
    product (left operand contracted on its second axis, right on its first, no batch axis), so entry (p, k) is
    Σ_l lhs(p, l) · rhs(l, k). -/
theorem dot_32x32_at {φ₁ φ₂ : FTy} (l : FVec Ideal S2000x32 φ₁) (r : FVec Ideal S32x32 φ₂) (p : Fin 2000) (k : Fin 32) :
    matmul dot_S2000x32_S32x32_S2000x32_1_0_0_1_n_n none l r (constant (F := Ideal) S2000x32 .f32 0x00000000#32) (ix2 p k)
      = ∑ l' : Fin 32, l (ix2 p l') * r (ix2 l' k) :=
  plain_matmul_zero_apply none l r (ix2 p k)

/-- Rows by one column, 2000 x 32 by 32 x 1, into the zero accumulator: entry (p, u) is Σ_l lhs(p, l) · rhs(l, u). -/
theorem dot_32x1_at {φ₁ φ₂ : FTy} (l : FVec Ideal S2000x32 φ₁) (r : FVec Ideal S32x1 φ₂) (p : Fin 2000) (u : Fin 1) :
    matmul dot_S2000x32_S32x1_S2000x1_1_0_0_1_n_n none l r (constant (F := Ideal) S2000x1 .f32 0x00000000#32) (ix2 p u)
      = ∑ l' : Fin 32, l (ix2 p l') * r (ix2 l' u) :=
  plain_matmul_zero_apply none l r (ix2 p u)

/-- The zero word of single precision denotes the extended real 0. -/
theorem zero_word : (FloatOps.ofBits (F := Ideal) .f32 0x00000000#32) = (0 : EReal) := Ideal.ofBits_zero_f32

/-- The inverse square root of an array, read at an entry, is the inverse square root of the entry. -/
theorem rsqrt_at {s : Shape} {φ : FTy} (x : FVec Ideal s φ) (i : s.Idx) : rsqrt x i = Ideal.rsqrt (x i) := rfl

/-- The logistic function of an array, read at an entry, is the logistic function of the entry. -/
theorem logistic_at {s : Shape} {φ : FTy} (x : FVec Ideal s φ) (i : s.Idx) : logistic x i = Ideal.logistic (x i) := rfl

/-! ## The two stretches -/

/-- The body's message at row p, feature j, from the first-layer features h. -/
theorem pay8_at (h : FVec Ideal S2000x32 .f32) (g beta : FVec Ideal S1x32 .f32) (mean var : Vec Ideal S1x32 .f32)
    (w2 : Vec Ideal S32x32 .f32) (b2 : Vec Ideal S1x32 .f32) (w5 : Vec Ideal S32x1 .f32) (b5 : Vec Ideal S1x1 .f32)
    (p : Fin 2000) (j : Fin 32) :
    k0_pay8 (F := Ideal) h g beta mean var w2 b2 w5 b5 (ix2 p j)
      = msg (row h p) (row mean 0) (fun k => scaleK (row g 0 k) (row var 0 k)) (row beta 0) (mat w2) (row b2 0) (col w5)
          (b5 (ix2 0 0)) j := by
  unfold k0_pay8 msg gate hid2 hid1 scaleK
  /- Read every operation at its entry. A 1 x 32 block cast to its own shape is itself; spread over the 2000 rows it
     reads, at (p, k), its entry (0, k), and the 1 x 1 bias spread over the rows reads its one entry (0, 0). So the
     normalised, shifted and clipped features are, at (p, k),
       h1 k = max ((h(p, k) - mean(0, k)) · (g(0, k) · rsqrt (var(0, k) + ε)) + beta(0, k)) 0,
     the scale being computed once on the 1 x 32 block and then spread. The first product gives
       h2 k = max (Σ_l h1 l · w2(l, k) + b2(0, k)) 0
     at (p, k); the second, a one-column product, gives Σ_l h2 l · w5(l, 0) at (p, 0), to which the bias is added and
     the logistic function applied; that column, spread over the 32 features, multiplies h2 j. -/
  simp only [maximumf_apply, mulf_apply, addf_apply, subf_apply, broadcast_apply, truncf_apply, rsqrt_at, logistic_at,
    broadcastTo_a1_ab_apply, broadcastTo_1b_ab_apply, shapeCast_self, dot_32x32_at, dot_32x1_at, zero_word]
  /- What is left differs from the message only in names: a row, a matrix and a column of an array are the array read
     at the corresponding entries, and ε is the word the body carries. -/
  rfl

/-- The body's clamped coordinate update at row p, coordinate d, from the difference dx and the message mm. -/
theorem pay1_at (dx : FVec Ideal S2000x3 .f32) (mm : FVec Ideal S2000x32 .f32) (w3 : Vec Ideal S32x32 .f32)
    (b3 : Vec Ideal S1x32 .f32) (w4 : Vec Ideal S32x1 .f32) (p : Fin 2000) (d : Fin 3) :
    k0_pay1 (F := Ideal) dx mm w3 b3 w4 (ix2 p d) = upd (row dx p) (row mm p) (mat w3) (row b3 0) (col w4) d := by
  unfold k0_pay1 upd phi
  /- Read every operation at its entry. The first product with the bias row and the clip at 0 gives, at (p, l),
       max (Σ_l' mm(p, l') · w3(l', l) + b3(0, l)) 0;
     the one-column product gives φ = Σ_l (that) · w4(l, 0) at (p, 0); that column, spread over the three coordinates,
     multiplies dx(p, d), and the result is clipped below by the splat lower bound and above by the splat upper bound. -/
  simp only [minimumf_apply, maximumf_apply, mulf_apply, addf_apply, broadcast_apply, truncf_apply,
    broadcastTo_a1_ab_apply, broadcastTo_1b_ab_apply, shapeCast_self, dot_32x32_at, dot_32x1_at, zero_word]
  /- The two bounds are the words the body carries; rows, matrix and column are the arrays read at their entries. -/
  rfl

end Cert.KernelIdeal.Rows

end
-- ==== Proof.HostParts.lean ====
/-
  The host lines the two programs share, as functions of @main's arguments: the source and destination node of every edge
  (the two rows of the edge list), the rows of the node coordinates gathered at a wrapped node index, and the closing
  scatter-mean that adds to each node's coordinates the mean of the updates of the edges leaving it. And, over them, the
  two arrays the edge layer produces: every edge's message and every edge's clamped coordinate update.
-/
import proofs.«161814_j936302870591_1_alg».proof.Proof.Gen.KernelIdeal
import proofs.«161814_j936302870591_1_alg».proof.Proof.EdgeSpec

noncomputable section

namespace Cert.Edge

open Cert.KernelIdeal Cert.KernelIdeal.Facts₀ Cert.KernelIdeal.Facts Idealize.ShloMosaic Idealize.ShloMosaic.ValueIdx

/-- Row 0 of the edge list: each edge's source node. -/
def srcOf (x1 : IVec S2x3200000 32) : IVec S3200000 32 :=
  shapeCast S3200000 (extractStridedSlice S1x3200000 ![0, 0] x1 slices_S2x3200000_S1x3200000_0_0) shapeCasts_S1x3200000_S3200000

/-- Row 1 of the edge list: each edge's destination node. -/
def dstOf (x1 : IVec S2x3200000 32) : IVec S3200000 32 :=
  shapeCast S3200000 (extractStridedSlice S1x3200000 ![1, 0] x1 slices_S2x3200000_S1x3200000_1_0) shapeCasts_S1x3200000_S3200000

/-- The coordinate rows at the nodes `ix` names, a negative index counted from the end. -/
def gatherAt (x0 : FVec Ideal S100000x3 .f32) (ix : IVec S3200000 32) : FVec Ideal S3200000x3 .f32 :=
  Host.gather gather_S100000x3_S3200000x1_S3200000x3_1_0_n_n_0_1_13 x0
    (broadcastInDim S3200000x1 ![0] bcast_S3200000_S3200000x1_0
      (select (cmpi .slt ix (broadcastInDim S3200000 ![] bcast_S_S3200000 (constantI S_ 32 0#32)))
        (addi ix (broadcastInDim S3200000 ![] bcast_S_S3200000 (constantI S_ 32 100000#32))) ix))

/-- The closing scatter-mean: node coordinates plus, per node, the sum of the updates `u` of the edges whose source it is
    divided by max(their number, 1), times 1. -/
def nodeTail (x0 : FVec Ideal S100000x3 .f32) (src : IVec S3200000 32) (u : FVec Ideal S3200000x3 .f32) :
    FVec Ideal S100000x3 .f32 :=
  addf x0
    (mulf
      (Host.divf (F := Ideal)
        (Host.scatterAdd (F := Ideal) scatter_S100000x3_S3200000x1_S3200000x3_1_0_0_1
          (broadcastInDim S100000x3 ![] bcast_S_S100000x3 (constant (F := Ideal) S_ .f32 0x00000000#32))
          (broadcastInDim S3200000x1 ![0] bcast_S3200000_S3200000x1_0 src) u)
        (broadcastInDim S100000x3 ![0, 1] bcast_S100000x1_S100000x3_0_1
          (broadcastInDim S100000x1 ![0] bcast_S100000_S100000x1_0
            (maximumf
              (Host.scatterAdd (F := Ideal) scatter_S100000_S3200000x1_S3200000_n_0_0_1
                (broadcastInDim S100000 ![] bcast_S_S100000 (constant (F := Ideal) S_ .f32 0x00000000#32))
                (broadcastInDim S3200000x1 ![0] bcast_S3200000_S3200000x1_0 src)
                (broadcastInDim S3200000 ![] bcast_S_S3200000 (constant (F := Ideal) S_ .f32 0x3F800000#32)))
              (broadcastInDim S100000 ![] bcast_S_S100000 (constant (F := Ideal) S_ .f32 0x3F800000#32))))))
      (broadcastInDim S100000x3 ![] bcast_S_S100000x3 (constant (F := Ideal) S_ .f32 0x3F800000#32)))

/-- Every edge's message, as one array, from @main's arguments; `sc` is the spelling of the normalisation's scale. -/
def msgOut (sc : EReal → EReal → EReal) (x0 : FVec Ideal S100000x3 .f32) (x1 : IVec S2x3200000 32) (x2 : FVec Ideal S2x32 .f32)
    (x3 x4 x5 x6 : FVec Ideal S32 .f32) (x7 : FVec Ideal S32x32 .f32) (x8 : FVec Ideal S32 .f32)
    (x12 : FVec Ideal S32x1 .f32) (x13 : FVec Ideal S1 .f32) : FVec Ideal S3200000x32 .f32 :=
  fun i => msgAt sc (gatherAt x0 (srcOf x1)) (gatherAt x0 (dstOf x1)) x2 x3 x4 x5 x6 x7 x8 x12 x13 (i 0) (i 1)

/-- Every edge's clamped coordinate update, as one array, from @main's arguments. -/
def updOut (sc : EReal → EReal → EReal) (x0 : FVec Ideal S100000x3 .f32) (x1 : IVec S2x3200000 32) (x2 : FVec Ideal S2x32 .f32)
    (x3 x4 x5 x6 : FVec Ideal S32 .f32) (x7 : FVec Ideal S32x32 .f32) (x8 : FVec Ideal S32 .f32)
    (x9 : FVec Ideal S32x32 .f32) (x10 : FVec Ideal S32 .f32) (x11 x12 : FVec Ideal S32x1 .f32) (x13 : FVec Ideal S1 .f32) :
    FVec Ideal S3200000x3 .f32 :=
  fun i => updAt sc (gatherAt x0 (srcOf x1)) (gatherAt x0 (dstOf x1)) x2 x3 x4 x5 x6 x7 x8 x9 x10 x11 x12 x13 (i 0) (i 1)

end Cert.Edge

end
-- ==== Proof.KernelArrays.lean ====
/-
  What the kernel region leaves in its two result arrays, from @main's arguments: the message array and the update array
  are, row by row, the edge layer of the two gathered coordinate arrays. Block t of either array holds rows
  2000 t … 2000 t + 1999; the two coordinate windows are cut the same way and every parameter window is the whole
  parameter at every point, so the row read off the body's arithmetic at row p of block t is the edge layer at edge
  2000 t + p; the blocks tile the arrays.
-/
import proofs.«161814_j936302870591_1_alg».proof.Proof.Gen.KernelIdeal.Frame
import proofs.«161814_j936302870591_1_alg».proof.Proof.KernelRowsA
import proofs.«161814_j936302870591_1_alg».proof.Proof.KernelRowsB
import proofs.«161814_j936302870591_1_alg».proof.Proof.HostParts
import Idealize.ShloMosaic.Lib.Pipeline.Value
import Idealize.ShloMosaic.Lib.StableHlo.Run

noncomputable section

namespace Cert.KernelIdeal.Arrays

open Cert.KernelIdeal Cert.KernelIdeal.Gen Cert.Edge Idealize.ShloMosaic Idealize.ShloMosaic.TcCoe Idealize.ShloMosaic.ValueIdx
open Idealize.SL.Sem

variable (m : (ℓ : Loc nD τ sig) → Buf (Elt Ideal) ℓ)

/-! ## The arrays the host lines before the region leave -/

/-- The source-node vector as the host lines before the region leave it. -/
theorem V_src (c : Dev nD) : V m c main_v1 = srcOf (m ((c : Thread nD τ).loc main_arg1)) := by
  show StableHlo.after hostOps0 (fun b => m (c, b)) (Proc.devRef .tc main_v1) = _
  after_results_simp
  rfl

/-- The first coordinate window's array: the node coordinates gathered at every edge's source. -/
theorem V_gatherI (c : Dev nD) :
    V m c main_v10 = gatherAt (m ((c : Thread nD τ).loc main_arg0)) (srcOf (m ((c : Thread nD τ).loc main_arg1))) := by
  show StableHlo.after hostOps0 (fun b => m (c, b)) (Proc.devRef .tc main_v10) = _
  after_results_simp
  rfl

/-- The second coordinate window's array: the node coordinates gathered at every edge's destination. -/
theorem V_gatherJ (c : Dev nD) :
    V m c main_v17 = gatherAt (m ((c : Thread nD τ).loc main_arg0)) (dstOf (m ((c : Thread nD τ).loc main_arg1))) := by
  show StableHlo.after hostOps0 (fun b => m (c, b)) (Proc.devRef .tc main_v17) = _
  after_results_simp
  rfl

/-- A [32] vector reshaped to [1,32], read at (0, k), is the vector at k: the two indices have the same row-major
    position, k = 0 · 32 + k. -/
theorem reshape32_row (x : FVec Ideal S32 .f32) (h : S32.ShapeCasts S1x32) (k : Fin 32) :
    shapeCast S1x32 x h (ix2 0 k) = x (ix1 k) := by
  refine shapeCast_apply x h (ix2 0 k) (ix1 k) ?_
  rw [Shape.rowMajor_val_one, Shape.rowMajor_val_two]
  show k.val = 0 * 32 + k.val
  omega

/-- A [1] vector reshaped to [1,1], read at (0, 0), is the vector at 0. -/
theorem reshape1_row (x : FVec Ideal S1 .f32) (h : S1.ShapeCasts S1x1) :
    shapeCast S1x1 x h (ix2 0 0) = x (ix1 0) := by
  refine shapeCast_apply x h (ix2 0 0) (ix1 0) ?_
  rw [Shape.rowMajor_val_one, Shape.rowMajor_val_two]
  rfl

/-- The reshaped parameter array main_v18 at (0, k) is @main's argument 3 at k. -/
theorem V_gain (c : Dev nD) (k : Fin 32) :
    (V m c main_v18 : S1x32.Idx → EReal) (ix2 0 k) = (m ((c : Thread nD τ).loc main_arg3) : S32.Idx → EReal) (ix1 k) := by
  have e : (V m c main_v18 : S1x32.Idx → EReal)
      = shapeCast S1x32 (m ((c : Thread nD τ).loc main_arg3) : S32.Idx → EReal) shapeCasts_S32_S1x32 := by
    show StableHlo.after hostOps0 (fun b => m (c, b)) (Proc.devRef .tc main_v18) = _
    after_results_simp
    rfl
  rw [e]
  exact reshape32_row _ _ k

/-- The reshaped parameter array main_v19 at (0, k) is @main's argument 4 at k. -/
theorem V_shift (c : Dev nD) (k : Fin 32) :
    (V m c main_v19 : S1x32.Idx → EReal) (ix2 0 k) = (m ((c : Thread nD τ).loc main_arg4) : S32.Idx → EReal) (ix1 k) := by
  have e : (V m c main_v19 : S1x32.Idx → EReal)
      = shapeCast S1x32 (m ((c : Thread nD τ).loc main_arg4) : S32.Idx → EReal) shapeCasts_S32_S1x32 := by
    show StableHlo.after hostOps0 (fun b => m (c, b)) (Proc.devRef .tc main_v19) = _
    after_results_simp
    rfl
  rw [e]
  exact reshape32_row _ _ k

/-- The reshaped parameter array main_v20 at (0, k) is @main's argument 5 at k. -/
theorem V_mean (c : Dev nD) (k : Fin 32) :
    (V m c main_v20 : S1x32.Idx → EReal) (ix2 0 k) = (m ((c : Thread nD τ).loc main_arg5) : S32.Idx → EReal) (ix1 k) := by
  have e : (V m c main_v20 : S1x32.Idx → EReal)
      = shapeCast S1x32 (m ((c : Thread nD τ).loc main_arg5) : S32.Idx → EReal) shapeCasts_S32_S1x32 := by
    show StableHlo.after hostOps0 (fun b => m (c, b)) (Proc.devRef .tc main_v20) = _
    after_results_simp
    rfl
  rw [e]
  exact reshape32_row _ _ k

/-- The reshaped parameter array main_v21 at (0, k) is @main's argument 6 at k. -/
theorem V_var (c : Dev nD) (k : Fin 32) :
    (V m c main_v21 : S1x32.Idx → EReal) (ix2 0 k) = (m ((c : Thread nD τ).loc main_arg6) : S32.Idx → EReal) (ix1 k) := by
  have e : (V m c main_v21 : S1x32.Idx → EReal)
      = shapeCast S1x32 (m ((c : Thread nD τ).loc main_arg6) : S32.Idx → EReal) shapeCasts_S32_S1x32 := by
    show StableHlo.after hostOps0 (fun b => m (c, b)) (Proc.devRef .tc main_v21) = _
    after_results_simp
    rfl
  rw [e]
  exact reshape32_row _ _ k

/-- The reshaped parameter array main_v22 at (0, k) is @main's argument 8 at k. -/
theorem V_b2 (c : Dev nD) (k : Fin 32) :
    (V m c main_v22 : S1x32.Idx → EReal) (ix2 0 k) = (m ((c : Thread nD τ).loc main_arg8) : S32.Idx → EReal) (ix1 k) := by
  have e : (V m c main_v22 : S1x32.Idx → EReal)
      = shapeCast S1x32 (m ((c : Thread nD τ).loc main_arg8) : S32.Idx → EReal) shapeCasts_S32_S1x32 := by
    show StableHlo.after hostOps0 (fun b => m (c, b)) (Proc.devRef .tc main_v22) = _
    after_results_simp
    rfl
  rw [e]
  exact reshape32_row _ _ k

/-- The reshaped parameter array main_v23 at (0, k) is @main's argument 10 at k. -/
theorem V_b3 (c : Dev nD) (k : Fin 32) :
    (V m c main_v23 : S1x32.Idx → EReal) (ix2 0 k) = (m ((c : Thread nD τ).loc main_arg10) : S32.Idx → EReal) (ix1 k) := by
  have e : (V m c main_v23 : S1x32.Idx → EReal)
      = shapeCast S1x32 (m ((c : Thread nD τ).loc main_arg10) : S32.Idx → EReal) shapeCasts_S32_S1x32 := by
    show StableHlo.after hostOps0 (fun b => m (c, b)) (Proc.devRef .tc main_v23) = _
    after_results_simp
    rfl
  rw [e]
  exact reshape32_row _ _ k

/-- The reshaped parameter array main_v24 at (0, 0) is @main's argument 13 at 0. -/
theorem V_b5 (c : Dev nD) :
    (V m c main_v24 : S1x1.Idx → EReal) (ix2 0 0) = (m ((c : Thread nD τ).loc main_arg13) : S1.Idx → EReal) (ix1 0) := by
  have e : (V m c main_v24 : S1x1.Idx → EReal)
      = shapeCast S1x1 (m ((c : Thread nD τ).loc main_arg13) : S1.Idx → EReal) shapeCasts_S1_S1x1 := by
    show StableHlo.after hostOps0 (fun b => m (c, b)) (Proc.devRef .tc main_v24) = _
    after_results_simp
    rfl
  rw [e]
  exact reshape1_row _ _

/-! ## The windows' blocks at a point -/

/-- The printed index maps over the grid: the two coordinate windows and the two result windows sit at block (t, 0). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_14.index t (0 : Fin 2) = t.val ∧ win0_14.index t (1 : Fin 2) = 0
    ∧ win0_15.index t (0 : Fin 2) = t.val ∧ win0_15.index t (1 : Fin 2) = 0 :=
  (by decide +kernel : ∀ t : Fin grid0.N, _)

/-- Row p of block t of the source-coordinate window is row 2000 t + p of its array: the block sits at block index (t, 0) and a
    block's coordinate is index × size + the coordinate inside the block. -/
theorem blk0_apply (c : Dev nD) (t : Fin cfg0.N) (p : Fin 2000) (d : Fin 3) (e : Fin 3200000)
    (he : e.val = 2000 * t.val + p.val) :
    (iblk m c 0 t : Vec Ideal S2000x3 .f32) (ix2 p d) = (V m c main_v10 : S3200000x3.Idx → EReal) (ix2 e d) := by
  have h0 : win0_0.index t (0 : Fin 2) = t.val := (idx_rows t).1
  have h1 : win0_0.index t (1 : Fin 2) = 0 := (idx_rows t).2.1
  unfold iblk
  rw [View.read_apply]
  show (V m c main_v10 : S3200000x3.Idx → EReal) _ = (V m c main_v10 : S3200000x3.Idx → EReal) _
  refine congrArg (V m c main_v10 : S3200000x3.Idx → EReal) ?_
  funext a
  apply Fin.ext
  match a with
  | ⟨0, _⟩ => show win0_0.index t (0 : Fin 2) * 2000 + 1 * p.val = e.val; rw [h0, he]; omega
  | ⟨1, _⟩ => show win0_0.index t (1 : Fin 2) * 3 + 1 * d.val = d.val; rw [h1]; omega

/-- Row p of block t of the destination-coordinate window is row 2000 t + p of its array: the block sits at block index (t, 0) and a
    block's coordinate is index × size + the coordinate inside the block. -/
theorem blk1_apply (c : Dev nD) (t : Fin cfg0.N) (p : Fin 2000) (d : Fin 3) (e : Fin 3200000)
    (he : e.val = 2000 * t.val + p.val) :
    (iblk m c 1 t : Vec Ideal S2000x3 .f32) (ix2 p d) = (V m c main_v17 : S3200000x3.Idx → EReal) (ix2 e d) := by
  have h0 : win0_1.index t (0 : Fin 2) = t.val := (idx_rows t).2.2.1
  have h1 : win0_1.index t (1 : Fin 2) = 0 := (idx_rows t).2.2.2.1
  unfold iblk
  rw [View.read_apply]
  show (V m c main_v17 : S3200000x3.Idx → EReal) _ = (V m c main_v17 : S3200000x3.Idx → EReal) _
  refine congrArg (V m c main_v17 : S3200000x3.Idx → EReal) ?_
  funext a
  apply Fin.ext
  match a with
  | ⟨0, _⟩ => show win0_1.index t (0 : Fin 2) * 2000 + 1 * p.val = e.val; rw [h0, he]; omega
  | ⟨1, _⟩ => show win0_1.index t (1 : Fin 2) * 3 + 1 * d.val = d.val; rw [h1]; omega

/-- Window 2's block is its whole array at every point: its block index is (0, 0). -/
theorem blk2_eq (c : Dev nD) (t : Fin cfg0.N) :
    (iblk m c 2 t : Vec Ideal S2x32 .f32) = (V m c main_arg2 : S2x32.Idx → EReal) := by
  funext y
  unfold iblk
  rw [View.read_apply]
  show (V m c main_arg2 : S2x32.Idx → EReal) _ = (V m c main_arg2 : S2x32.Idx → EReal) _
  refine congrArg (V m c main_arg2 : S2x32.Idx → EReal) ?_
  funext a
  apply Fin.ext
  match a with
  | ⟨0, _⟩ => show win0_2.index t (0 : Fin 2) * 2 + 1 * (y 0).val = (y 0).val; rw [show win0_2.index t (0 : Fin 2) = 0 from rfl]; omega
  | ⟨1, _⟩ => show win0_2.index t (1 : Fin 2) * 32 + 1 * (y 1).val = (y 1).val; rw [show win0_2.index t (1 : Fin 2) = 0 from rfl]; omega

/-- Window 3's block is its whole array at every point: its block index is (0, 0). -/
theorem blk3_eq (c : Dev nD) (t : Fin cfg0.N) :
    (iblk m c 3 t : Vec Ideal S1x32 .f32) = (V m c main_v18 : S1x32.Idx → EReal) := by
  funext y
  unfold iblk
  rw [View.read_apply]
  show (V m c main_v18 : S1x32.Idx → EReal) _ = (V m c main_v18 : S1x32.Idx → EReal) _
  refine congrArg (V m c main_v18 : S1x32.Idx → EReal) ?_
  funext a
  apply Fin.ext
  match a with
  | ⟨0, _⟩ => show win0_3.index t (0 : Fin 2) * 1 + 1 * (y 0).val = (y 0).val; rw [show win0_3.index t (0 : Fin 2) = 0 from rfl]; omega
  | ⟨1, _⟩ => show win0_3.index t (1 : Fin 2) * 32 + 1 * (y 1).val = (y 1).val; rw [show win0_3.index t (1 : Fin 2) = 0 from rfl]; omega

/-- Window 4's block is its whole array at every point: its block index is (0, 0). -/
theorem blk4_eq (c : Dev nD) (t : Fin cfg0.N) :
    (iblk m c 4 t : Vec Ideal S1x32 .f32) = (V m c main_v19 : S1x32.Idx → EReal) := by
  funext y
  unfold iblk
  rw [View.read_apply]
  show (V m c main_v19 : S1x32.Idx → EReal) _ = (V m c main_v19 : S1x32.Idx → EReal) _
  refine congrArg (V m c main_v19 : S1x32.Idx → EReal) ?_
  funext a
  apply Fin.ext
  match a with
  | ⟨0, _⟩ => show win0_4.index t (0 : Fin 2) * 1 + 1 * (y 0).val = (y 0).val; rw [show win0_4.index t (0 : Fin 2) = 0 from rfl]; omega
  | ⟨1, _⟩ => show win0_4.index t (1 : Fin 2) * 32 + 1 * (y 1).val = (y 1).val; rw [show win0_4.index t (1 : Fin 2) = 0 from rfl]; omega

/-- Window 5's block is its whole array at every point: its block index is (0, 0). -/
theorem blk5_eq (c : Dev nD) (t : Fin cfg0.N) :
    (iblk m c 5 t : Vec Ideal S1x32 .f32) = (V m c main_v20 : S1x32.Idx → EReal) := by
  funext y
  unfold iblk
  rw [View.read_apply]
  show (V m c main_v20 : S1x32.Idx → EReal) _ = (V m c main_v20 : S1x32.Idx → EReal) _
  refine congrArg (V m c main_v20 : S1x32.Idx → EReal) ?_
  funext a
  apply Fin.ext
  match a with
  | ⟨0, _⟩ => show win0_5.index t (0 : Fin 2) * 1 + 1 * (y 0).val = (y 0).val; rw [show win0_5.index t (0 : Fin 2) = 0 from rfl]; omega
  | ⟨1, _⟩ => show win0_5.index t (1 : Fin 2) * 32 + 1 * (y 1).val = (y 1).val; rw [show win0_5.index t (1 : Fin 2) = 0 from rfl]; omega

/-- Window 6's block is its whole array at every point: its block index is (0, 0). -/
theorem blk6_eq (c : Dev nD) (t : Fin cfg0.N) :
    (iblk m c 6 t : Vec Ideal S1x32 .f32) = (V m c main_v21 : S1x32.Idx → EReal) := by
  funext y
  unfold iblk
  rw [View.read_apply]
  show (V m c main_v21 : S1x32.Idx → EReal) _ = (V m c main_v21 : S1x32.Idx → EReal) _
  refine congrArg (V m c main_v21 : S1x32.Idx → EReal) ?_
  funext a
  apply Fin.ext
  match a with
  | ⟨0, _⟩ => show win0_6.index t (0 : Fin 2) * 1 + 1 * (y 0).val = (y 0).val; rw [show win0_6.index t (0 : Fin 2) = 0 from rfl]; omega
  | ⟨1, _⟩ => show win0_6.index t (1 : Fin 2) * 32 + 1 * (y 1).val = (y 1).val; rw [show win0_6.index t (1 : Fin 2) = 0 from rfl]; omega

/-- Window 7's block is its whole array at every point: its block index is (0, 0). -/
theorem blk7_eq (c : Dev nD) (t : Fin cfg0.N) :
    (iblk m c 7 t : Vec Ideal S32x32 .f32) = (V m c main_arg7 : S32x32.Idx → EReal) := by
  funext y
  unfold iblk
  rw [View.read_apply]
  show (V m c main_arg7 : S32x32.Idx → EReal) _ = (V m c main_arg7 : S32x32.Idx → EReal) _
  refine congrArg (V m c main_arg7 : S32x32.Idx → EReal) ?_
  funext a
  apply Fin.ext
  match a with
  | ⟨0, _⟩ => show win0_7.index t (0 : Fin 2) * 32 + 1 * (y 0).val = (y 0).val; rw [show win0_7.index t (0 : Fin 2) = 0 from rfl]; omega
  | ⟨1, _⟩ => show win0_7.index t (1 : Fin 2) * 32 + 1 * (y 1).val = (y 1).val; rw [show win0_7.index t (1 : Fin 2) = 0 from rfl]; omega

/-- Window 8's block is its whole array at every point: its block index is (0, 0). -/
theorem blk8_eq (c : Dev nD) (t : Fin cfg0.N) :
    (iblk m c 8 t : Vec Ideal S1x32 .f32) = (V m c main_v22 : S1x32.Idx → EReal) := by
  funext y
  unfold iblk
  rw [View.read_apply]
  show (V m c main_v22 : S1x32.Idx → EReal) _ = (V m c main_v22 : S1x32.Idx → EReal) _
  refine congrArg (V m c main_v22 : S1x32.Idx → EReal) ?_
  funext a
  apply Fin.ext
  match a with
  | ⟨0, _⟩ => show win0_8.index t (0 : Fin 2) * 1 + 1 * (y 0).val = (y 0).val; rw [show win0_8.index t (0 : Fin 2) = 0 from rfl]; omega
  | ⟨1, _⟩ => show win0_8.index t (1 : Fin 2) * 32 + 1 * (y 1).val = (y 1).val; rw [show win0_8.index t (1 : Fin 2) = 0 from rfl]; omega

/-- Window 9's block is its whole array at every point: its block index is (0, 0). -/
theorem blk9_eq (c : Dev nD) (t : Fin cfg0.N) :
    (iblk m c 9 t : Vec Ideal S32x32 .f32) = (V m c main_arg9 : S32x32.Idx → EReal) := by
  funext y
  unfold iblk
  rw [View.read_apply]
  show (V m c main_arg9 : S32x32.Idx → EReal) _ = (V m c main_arg9 : S32x32.Idx → EReal) _
  refine congrArg (V m c main_arg9 : S32x32.Idx → EReal) ?_
  funext a
  apply Fin.ext
  match a with
  | ⟨0, _⟩ => show win0_9.index t (0 : Fin 2) * 32 + 1 * (y 0).val = (y 0).val; rw [show win0_9.index t (0 : Fin 2) = 0 from rfl]; omega
  | ⟨1, _⟩ => show win0_9.index t (1 : Fin 2) * 32 + 1 * (y 1).val = (y 1).val; rw [show win0_9.index t (1 : Fin 2) = 0 from rfl]; omega

/-- Window 10's block is its whole array at every point: its block index is (0, 0). -/
theorem blk10_eq (c : Dev nD) (t : Fin cfg0.N) :
    (iblk m c 10 t : Vec Ideal S1x32 .f32) = (V m c main_v23 : S1x32.Idx → EReal) := by
  funext y
  unfold iblk
  rw [View.read_apply]
  show (V m c main_v23 : S1x32.Idx → EReal) _ = (V m c main_v23 : S1x32.Idx → EReal) _
  refine congrArg (V m c main_v23 : S1x32.Idx → EReal) ?_
  funext a
  apply Fin.ext
  match a with
  | ⟨0, _⟩ => show win0_10.index t (0 : Fin 2) * 1 + 1 * (y 0).val = (y 0).val; rw [show win0_10.index t (0 : Fin 2) = 0 from rfl]; omega
  | ⟨1, _⟩ => show win0_10.index t (1 : Fin 2) * 32 + 1 * (y 1).val = (y 1).val; rw [show win0_10.index t (1 : Fin 2) = 0 from rfl]; omega

/-- Window 11's block is its whole array at every point: its block index is (0, 0). -/
theorem blk11_eq (c : Dev nD) (t : Fin cfg0.N) :
    (iblk m c 11 t : Vec Ideal S32x1 .f32) = (V m c main_arg11 : S32x1.Idx → EReal) := by
  funext y
  unfold iblk
  rw [View.read_apply]
  show (V m c main_arg11 : S32x1.Idx → EReal) _ = (V m c main_arg11 : S32x1.Idx → EReal) _
  refine congrArg (V m c main_arg11 : S32x1.Idx → EReal) ?_
  funext a
  apply Fin.ext
  match a with
  | ⟨0, _⟩ => show win0_11.index t (0 : Fin 2) * 32 + 1 * (y 0).val = (y 0).val; rw [show win0_11.index t (0 : Fin 2) = 0 from rfl]; omega
  | ⟨1, _⟩ => show win0_11.index t (1 : Fin 2) * 1 + 1 * (y 1).val = (y 1).val; rw [show win0_11.index t (1 : Fin 2) = 0 from rfl]; omega

/-- Window 12's block is its whole array at every point: its block index is (0, 0). -/
theorem blk12_eq (c : Dev nD) (t : Fin cfg0.N) :
    (iblk m c 12 t : Vec Ideal S32x1 .f32) = (V m c main_arg12 : S32x1.Idx → EReal) := by
  funext y
  unfold iblk
  rw [View.read_apply]
  show (V m c main_arg12 : S32x1.Idx → EReal) _ = (V m c main_arg12 : S32x1.Idx → EReal) _
  refine congrArg (V m c main_arg12 : S32x1.Idx → EReal) ?_
  funext a
  apply Fin.ext
  match a with
  | ⟨0, _⟩ => show win0_12.index t (0 : Fin 2) * 32 + 1 * (y 0).val = (y 0).val; rw [show win0_12.index t (0 : Fin 2) = 0 from rfl]; omega
  | ⟨1, _⟩ => show win0_12.index t (1 : Fin 2) * 1 + 1 * (y 1).val = (y 1).val; rw [show win0_12.index t (1 : Fin 2) = 0 from rfl]; omega

/-- Window 13's block is its whole array at every point: its block index is (0, 0). -/
theorem blk13_eq (c : Dev nD) (t : Fin cfg0.N) :
    (iblk m c 13 t : Vec Ideal S1x1 .f32) = (V m c main_v24 : S1x1.Idx → EReal) := by
  funext y
  unfold iblk
  rw [View.read_apply]
  show (V m c main_v24 : S1x1.Idx → EReal) _ = (V m c main_v24 : S1x1.Idx → EReal) _
  refine congrArg (V m c main_v24 : S1x1.Idx → EReal) ?_
  funext a
  apply Fin.ext
  match a with
  | ⟨0, _⟩ => show win0_13.index t (0 : Fin 2) * 1 + 1 * (y 0).val = (y 0).val; rw [show win0_13.index t (0 : Fin 2) = 0 from rfl]; omega
  | ⟨1, _⟩ => show win0_13.index t (1 : Fin 2) * 1 + 1 * (y 1).val = (y 1).val; rw [show win0_13.index t (1 : Fin 2) = 0 from rfl]; omega

/-! ## The blocks at a point, from @main's arguments -/

/-- Row p of the source-coordinate block at point t is the gathered source coordinates of edge 2000 t + p. -/
theorem blk_rowI (c : Dev nD) (t : Fin cfg0.N) (p : Fin 2000) (e : Fin 3200000) (he : e.val = 2000 * t.val + p.val) (d : Fin 3) :
    (iblk m c 0 t : Vec Ideal S2000x3 .f32) (ix2 p d) = (gatherAt (m ((c : Thread nD τ).loc main_arg0)) (srcOf (m ((c : Thread nD τ).loc main_arg1)))) (ix2 e d) :=
  (blk0_apply m c t p d e he).trans (congrFun (V_gatherI m c) (ix2 e d))

/-- Row p of the destination-coordinate block at point t is the gathered destination coordinates of edge 2000 t + p. -/
theorem blk_rowJ (c : Dev nD) (t : Fin cfg0.N) (p : Fin 2000) (e : Fin 3200000) (he : e.val = 2000 * t.val + p.val) (d : Fin 3) :
    (iblk m c 1 t : Vec Ideal S2000x3 .f32) (ix2 p d) = (gatherAt (m ((c : Thread nD τ).loc main_arg0)) (dstOf (m ((c : Thread nD τ).loc main_arg1)))) (ix2 e d) :=
  (blk1_apply m c t p d e he).trans (congrFun (V_gatherJ m c) (ix2 e d))

/-- Window 2's block is @main's argument 2. -/
theorem blk_W1 (c : Dev nD) (t : Fin cfg0.N) : (iblk m c 2 t : Vec Ideal S2x32 .f32) = ((m ((c : Thread nD τ).loc main_arg2)) : S2x32.Idx → EReal) :=
  (blk2_eq m c t).trans (V_main_arg2 m c)

/-- Window 3's block at (0, k) is @main's argument 3 at k. -/
theorem blk_gain (c : Dev nD) (t : Fin cfg0.N) (k : Fin 32) :
    (iblk m c 3 t : Vec Ideal S1x32 .f32) (ix2 0 k) = ((m ((c : Thread nD τ).loc main_arg3)) : S32.Idx → EReal) (ix1 k) :=
  (congrFun (blk3_eq m c t) (ix2 0 k)).trans (V_gain m c k)

/-- Window 4's block at (0, k) is @main's argument 4 at k. -/
theorem blk_shift (c : Dev nD) (t : Fin cfg0.N) (k : Fin 32) :
    (iblk m c 4 t : Vec Ideal S1x32 .f32) (ix2 0 k) = ((m ((c : Thread nD τ).loc main_arg4)) : S32.Idx → EReal) (ix1 k) :=
  (congrFun (blk4_eq m c t) (ix2 0 k)).trans (V_shift m c k)

/-- Window 5's block at (0, k) is @main's argument 5 at k. -/
theorem blk_mean (c : Dev nD) (t : Fin cfg0.N) (k : Fin 32) :
    (iblk m c 5 t : Vec Ideal S1x32 .f32) (ix2 0 k) = ((m ((c : Thread nD τ).loc main_arg5)) : S32.Idx → EReal) (ix1 k) :=
  (congrFun (blk5_eq m c t) (ix2 0 k)).trans (V_mean m c k)

/-- Window 6's block at (0, k) is @main's argument 6 at k. -/
theorem blk_var (c : Dev nD) (t : Fin cfg0.N) (k : Fin 32) :
    (iblk m c 6 t : Vec Ideal S1x32 .f32) (ix2 0 k) = ((m ((c : Thread nD τ).loc main_arg6)) : S32.Idx → EReal) (ix1 k) :=
  (congrFun (blk6_eq m c t) (ix2 0 k)).trans (V_var m c k)

/-- Window 7's block is @main's argument 7. -/
theorem blk_W2 (c : Dev nD) (t : Fin cfg0.N) : (iblk m c 7 t : Vec Ideal S32x32 .f32) = ((m ((c : Thread nD τ).loc main_arg7)) : S32x32.Idx → EReal) :=
  (blk7_eq m c t).trans (V_main_arg7 m c)

/-- Window 8's block at (0, k) is @main's argument 8 at k. -/
theorem blk_b2 (c : Dev nD) (t : Fin cfg0.N) (k : Fin 32) :
    (iblk m c 8 t : Vec Ideal S1x32 .f32) (ix2 0 k) = ((m ((c : Thread nD τ).loc main_arg8)) : S32.Idx → EReal) (ix1 k) :=
  (congrFun (blk8_eq m c t) (ix2 0 k)).trans (V_b2 m c k)

/-- Window 9's block is @main's argument 9. -/
theorem blk_W3 (c : Dev nD) (t : Fin cfg0.N) : (iblk m c 9 t : Vec Ideal S32x32 .f32) = ((m ((c : Thread nD τ).loc main_arg9)) : S32x32.Idx → EReal) :=
  (blk9_eq m c t).trans (V_main_arg9 m c)

/-- Window 10's block at (0, k) is @main's argument 10 at k. -/
theorem blk_b3 (c : Dev nD) (t : Fin cfg0.N) (k : Fin 32) :
    (iblk m c 10 t : Vec Ideal S1x32 .f32) (ix2 0 k) = ((m ((c : Thread nD τ).loc main_arg10)) : S32.Idx → EReal) (ix1 k) :=
  (congrFun (blk10_eq m c t) (ix2 0 k)).trans (V_b3 m c k)

/-- Window 11's block is @main's argument 11. -/
theorem blk_W4 (c : Dev nD) (t : Fin cfg0.N) : (iblk m c 11 t : Vec Ideal S32x1 .f32) = ((m ((c : Thread nD τ).loc main_arg11)) : S32x1.Idx → EReal) :=
  (blk11_eq m c t).trans (V_main_arg11 m c)

/-- Window 12's block is @main's argument 12. -/
theorem blk_W5 (c : Dev nD) (t : Fin cfg0.N) : (iblk m c 12 t : Vec Ideal S32x1 .f32) = ((m ((c : Thread nD τ).loc main_arg12)) : S32x1.Idx → EReal) :=
  (blk12_eq m c t).trans (V_main_arg12 m c)

/-- Window 13's block at (0, 0) is @main's argument 13 at 0. -/
theorem blk_b5 (c : Dev nD) (t : Fin cfg0.N) :
    (iblk m c 13 t : Vec Ideal S1x1 .f32) (ix2 0 0) = ((m ((c : Thread nD τ).loc main_arg13)) : S1.Idx → EReal) (ix1 0) :=
  (congrFun (blk13_eq m c t) (ix2 0 0)).trans (V_b5 m c)

/-- The message the body leaves at row p of a block is the edge layer's message at edge e, when row p of the two
    coordinate blocks is row e of the two gathered arrays and every parameter block is its parameter: the first linear
    layer of row p is that of edge e, and the [1,32] parameter blocks read at (0, k) are the [32] parameters at k. -/
theorem msg_row (XI XJ : FVec Ideal S3200000x3 .f32) (x2 : FVec Ideal S2x32 .f32) (x3 x4 x5 x6 : FVec Ideal S32 .f32)
    (x7 : FVec Ideal S32x32 .f32) (x8 : FVec Ideal S32 .f32) (x12 : FVec Ideal S32x1 .f32) (x13 : FVec Ideal S1 .f32)
    (b0 b1 : Vec Ideal S2000x3 .f32) (w1 : Vec Ideal S2x32 .f32) (g beta mean var : Vec Ideal S1x32 .f32)
    (w2 : Vec Ideal S32x32 .f32) (b2 : Vec Ideal S1x32 .f32) (w5 : Vec Ideal S32x1 .f32) (b5 : Vec Ideal S1x1 .f32)
    (e : Fin 3200000) (p : Fin 2000) (j : Fin 32)
    (h0 : ∀ d, b0 (ix2 p d) = XI (ix2 e d)) (h1 : ∀ d, b1 (ix2 p d) = XJ (ix2 e d)) (hw1 : w1 = x2)
    (hg : ∀ k, g (ix2 0 k) = x3 (ix1 k)) (hbeta : ∀ k, beta (ix2 0 k) = x4 (ix1 k))
    (hmean : ∀ k, mean (ix2 0 k) = x5 (ix1 k)) (hvar : ∀ k, var (ix2 0 k) = x6 (ix1 k)) (hw2 : w2 = x7)
    (hb2 : ∀ k, b2 (ix2 0 k) = x8 (ix1 k)) (hw5 : w5 = x12) (hb5 : b5 (ix2 0 0) = x13 (ix1 0)) :
    k0_pay8 (F := Ideal) (k0_pay5 (F := Ideal) b0 b1 w1) (k0_pay6 (F := Ideal) g) (k0_pay7 (F := Ideal) beta) mean var w2 b2 w5 b5
        (ix2 p j)
      = msgAt scaleK XI XJ x2 x3 x4 x5 x6 x7 x8 x12 x13 e j := by
  subst hw1 hw2 hw5
  have r0 : row b0 p = row XI e := funext h0
  have r1 : row b1 p = row XJ e := funext h1
  have e5 : row (k0_pay5 (F := Ideal) b0 b1 w1) p = lin1 (row XI e) (row XJ e) (mat w1) :=
    funext fun k => (Rows.pay5_at b0 b1 w1 p k).trans (by rw [r0, r1])
  have e6 : k0_pay6 (F := Ideal) g = g := shapeCast_self _ _
  have e7 : k0_pay7 (F := Ideal) beta = beta := shapeCast_self _ _
  have emean : row mean 0 = vec x5 := funext hmean
  have ebeta : row beta 0 = vec x4 := funext hbeta
  have eb2 : row b2 0 = vec x8 := funext hb2
  have esc : (fun k => scaleK (row g 0 k) (row var 0 k)) = fun k => scaleK (vec x3 k) (vec x6 k) :=
    funext fun k => by show scaleK (g (ix2 0 k)) (var (ix2 0 k)) = scaleK (x3 (ix1 k)) (x6 (ix1 k)); rw [hg, hvar]
  refine (Rows.pay8_at _ _ _ mean var w2 b2 w5 b5 p j).trans ?_
  rw [e5, e6, e7, emean, ebeta, eb2, esc, hb5]
  rfl

/-- The update the body leaves at row p of a block is the edge layer's update at edge e, under the same reading of the
    blocks: the coordinate difference of row p is that of edge e and the message row is the edge's message. -/
theorem upd_row (XI XJ : FVec Ideal S3200000x3 .f32) (x2 : FVec Ideal S2x32 .f32) (x3 x4 x5 x6 : FVec Ideal S32 .f32)
    (x7 : FVec Ideal S32x32 .f32) (x8 : FVec Ideal S32 .f32) (x9 : FVec Ideal S32x32 .f32) (x10 : FVec Ideal S32 .f32)
    (x11 x12 : FVec Ideal S32x1 .f32) (x13 : FVec Ideal S1 .f32)
    (b0 b1 : Vec Ideal S2000x3 .f32) (w1 : Vec Ideal S2x32 .f32) (g beta mean var : Vec Ideal S1x32 .f32)
    (w2 : Vec Ideal S32x32 .f32) (b2 : Vec Ideal S1x32 .f32) (w3 : Vec Ideal S32x32 .f32) (b3 : Vec Ideal S1x32 .f32)
    (w4 w5 : Vec Ideal S32x1 .f32) (b5 : Vec Ideal S1x1 .f32)
    (e : Fin 3200000) (p : Fin 2000) (d : Fin 3)
    (h0 : ∀ d, b0 (ix2 p d) = XI (ix2 e d)) (h1 : ∀ d, b1 (ix2 p d) = XJ (ix2 e d)) (hw1 : w1 = x2)
    (hg : ∀ k, g (ix2 0 k) = x3 (ix1 k)) (hbeta : ∀ k, beta (ix2 0 k) = x4 (ix1 k))
    (hmean : ∀ k, mean (ix2 0 k) = x5 (ix1 k)) (hvar : ∀ k, var (ix2 0 k) = x6 (ix1 k)) (hw2 : w2 = x7)
    (hb2 : ∀ k, b2 (ix2 0 k) = x8 (ix1 k)) (hw3 : w3 = x9) (hb3 : ∀ k, b3 (ix2 0 k) = x10 (ix1 k)) (hw4 : w4 = x11)
    (hw5 : w5 = x12) (hb5 : b5 (ix2 0 0) = x13 (ix1 0)) :
    k0_pay1 (F := Ideal) (k0_pay4 (F := Ideal) b0 b1)
        (k0_pay8 (F := Ideal) (k0_pay5 (F := Ideal) b0 b1 w1) (k0_pay6 (F := Ideal) g) (k0_pay7 (F := Ideal) beta) mean var w2 b2 w5 b5)
        w3 b3 w4 (ix2 p d)
      = updAt scaleK XI XJ x2 x3 x4 x5 x6 x7 x8 x9 x10 x11 x12 x13 e d := by
  have em : row (k0_pay8 (F := Ideal) (k0_pay5 (F := Ideal) b0 b1 w1) (k0_pay6 (F := Ideal) g) (k0_pay7 (F := Ideal) beta) mean var w2 b2 w5 b5) p
      = msgAt scaleK XI XJ x2 x3 x4 x5 x6 x7 x8 x12 x13 e :=
    funext fun j => msg_row XI XJ x2 x3 x4 x5 x6 x7 x8 x12 x13 b0 b1 w1 g beta mean var w2 b2 w5 b5 e p j h0 h1 hw1 hg hbeta
      hmean hvar hw2 hb2 hw5 hb5
  subst hw3 hw4
  have ed : row (k0_pay4 (F := Ideal) b0 b1) p = fun d' => row XI e d' - row XJ e d' :=
    funext fun d' => (Rows.pay4_at b0 b1 p d').trans (by show b0 (ix2 p d') - b1 (ix2 p d') = XI (ix2 e d') - XJ (ix2 e d'); rw [h0, h1])
  have eb3 : row b3 0 = vec x10 := funext hb3
  refine (Rows.pay1_at _ _ w3 b3 w4 p d).trans ?_
  rw [em, ed, eb3]
  rfl

/-! ## What a point writes back, and the arrays after the run -/

/-- The offsets (0, 0) of a rectangle that is a whole block are zero on every axis. -/
theorem hz : (![0, 0] : Fin 2 → Nat) = fun _ => 0 := funext fun a => by fin_cases a <;> rfl

/-- Row p, column q of block t of result window 14 sits at row 2000 t + p, column q of its array. -/
theorem emb14 (t : Fin cfg0.N) (p : Fin 2000) (q : Fin 32) (e : Fin 3200000) (he : e.val = 2000 * t.val + p.val) :
    ((cfg0.win 14).blk t).view.emb (ix2 p q) = (ix2 e q : S3200000x32.Idx) := by
  have h0 : win0_14.index t (0 : Fin 2) = t.val := (idx_rows t).2.2.2.2.1
  have h1 : win0_14.index t (1 : Fin 2) = 0 := (idx_rows t).2.2.2.2.2.1
  funext a
  apply Fin.ext
  match a with
  | ⟨0, _⟩ => show win0_14.index t (0 : Fin 2) * 2000 + 1 * p.val = e.val; rw [h0, he]; omega
  | ⟨1, _⟩ => show win0_14.index t (1 : Fin 2) * 32 + 1 * q.val = q.val; rw [h1]; omega

/-- Row p, column q of block t of result window 15 sits at row 2000 t + p, column q of its array. -/
theorem emb15 (t : Fin cfg0.N) (p : Fin 2000) (q : Fin 3) (e : Fin 3200000) (he : e.val = 2000 * t.val + p.val) :
    ((cfg0.win 15).blk t).view.emb (ix2 p q) = (ix2 e q : S3200000x3.Idx) := by
  have h0 : win0_15.index t (0 : Fin 2) = t.val := (idx_rows t).2.2.2.2.2.2.1
  have h1 : win0_15.index t (1 : Fin 2) = 0 := (idx_rows t).2.2.2.2.2.2.2
  funext a
  apply Fin.ext
  match a with
  | ⟨0, _⟩ => show win0_15.index t (0 : Fin 2) * 2000 + 1 * p.val = e.val; rw [h0, he]; omega
  | ⟨1, _⟩ => show win0_15.index t (1 : Fin 2) * 3 + 1 * q.val = q.val; rw [h1]; omega

/-- What point t writes back to the message array is block t of the edge layer's message array: the body's one store
    covers the block, its payload at row p is the message of edge 2000 t + p. -/
theorem flushed_msg (c : Dev nD) (t : Fin cfg0.N) :
    (dats m 0 c).flushed 14 t = ((cfg0.win 14).blk t).view.read (Elt Ideal) (msgOut scaleK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13))) := by
  show (cfg0.win 14).cut (grid0.coords t) ((dats m 0 c).after 14 t) = _
  rw [after0_14]
  unfold out0_14
  rw [View.canon_unit_zero hz]
  simp only [View.ld_unit_zero (S := S2000x3) hz, View.ld_unit_zero (S := S2x32) hz, View.ld_unit_zero (S := S1x32) hz,
    View.ld_unit_zero (S := S32x32) hz, View.ld_unit_zero (S := S32x1) hz, View.ld_unit_zero (S := S1x1) hz]
  funext j
  obtain ⟨p, q, rfl⟩ : ∃ (p : Fin 2000) (q : Fin 32), j = ix2 p q := ⟨j 0, j 1, eq_ix2 j⟩
  have hN : cfg0.N = 1600 := N_0
  have hlt : 2000 * t.val + p.val < 3200000 := by have := t.isLt; have := p.isLt; omega
  rw [View.read_apply, emb14 t p q ⟨2000 * t.val + p.val, hlt⟩ rfl]
  show k0_pay8 (F := Ideal) (k0_pay5 (F := Ideal) (iblk m c 0 t) (iblk m c 1 t) (iblk m c 2 t)) (k0_pay6 (F := Ideal) (iblk m c 3 t)) (k0_pay7 (F := Ideal) (iblk m c 4 t))
      (iblk m c 5 t) (iblk m c 6 t) (iblk m c 7 t) (iblk m c 8 t) (iblk m c 12 t) (iblk m c 13 t) (ix2 p q)
    = msgAt scaleK (gatherAt (m ((c : Thread nD τ).loc main_arg0)) (srcOf (m ((c : Thread nD τ).loc main_arg1)))) (gatherAt (m ((c : Thread nD τ).loc main_arg0)) (dstOf (m ((c : Thread nD τ).loc main_arg1)))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) ⟨2000 * t.val + p.val, hlt⟩ q
  exact msg_row (gatherAt (m ((c : Thread nD τ).loc main_arg0)) (srcOf (m ((c : Thread nD τ).loc main_arg1)))) (gatherAt (m ((c : Thread nD τ).loc main_arg0)) (dstOf (m ((c : Thread nD τ).loc main_arg1)))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13))
    (iblk m c 0 t) (iblk m c 1 t) (iblk m c 2 t) (iblk m c 3 t) (iblk m c 4 t) (iblk m c 5 t) (iblk m c 6 t) (iblk m c 7 t) (iblk m c 8 t) (iblk m c 12 t) (iblk m c 13 t) ⟨2000 * t.val + p.val, hlt⟩ p q
    (blk_rowI m c t p _ rfl) (blk_rowJ m c t p _ rfl) (blk_W1 m c t) (blk_gain m c t) (blk_shift m c t) (blk_mean m c t)
    (blk_var m c t) (blk_W2 m c t) (blk_b2 m c t) (blk_W5 m c t) (blk_b5 m c t)

/-- What point t writes back to the update array is block t of the edge layer's update array. -/
theorem flushed_upd (c : Dev nD) (t : Fin cfg0.N) :
    (dats m 0 c).flushed 15 t = ((cfg0.win 15).blk t).view.read (Elt Ideal) (updOut scaleK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  show (cfg0.win 15).cut (grid0.coords t) ((dats m 0 c).after 15 t) = _
  rw [after0_15]
  unfold out0_15
  rw [View.canon_unit_zero hz]
  simp only [View.ld_unit_zero (S := S2000x3) hz, View.ld_unit_zero (S := S2x32) hz, View.ld_unit_zero (S := S1x32) hz,
    View.ld_unit_zero (S := S32x32) hz, View.ld_unit_zero (S := S32x1) hz, View.ld_unit_zero (S := S1x1) hz]
  funext j
  obtain ⟨p, q, rfl⟩ : ∃ (p : Fin 2000) (q : Fin 3), j = ix2 p q := ⟨j 0, j 1, eq_ix2 j⟩
  have hN : cfg0.N = 1600 := N_0
  have hlt : 2000 * t.val + p.val < 3200000 := by have := t.isLt; have := p.isLt; omega
  rw [View.read_apply, emb15 t p q ⟨2000 * t.val + p.val, hlt⟩ rfl]
  show k0_pay1 (F := Ideal) (k0_pay4 (F := Ideal) (iblk m c 0 t) (iblk m c 1 t))
      (k0_pay8 (F := Ideal) (k0_pay5 (F := Ideal) (iblk m c 0 t) (iblk m c 1 t) (iblk m c 2 t)) (k0_pay6 (F := Ideal) (iblk m c 3 t)) (k0_pay7 (F := Ideal) (iblk m c 4 t))
        (iblk m c 5 t) (iblk m c 6 t) (iblk m c 7 t) (iblk m c 8 t) (iblk m c 12 t) (iblk m c 13 t))
      (iblk m c 9 t) (iblk m c 10 t) (iblk m c 11 t) (ix2 p q)
    = updAt scaleK (gatherAt (m ((c : Thread nD τ).loc main_arg0)) (srcOf (m ((c : Thread nD τ).loc main_arg1)))) (gatherAt (m ((c : Thread nD τ).loc main_arg0)) (dstOf (m ((c : Thread nD τ).loc main_arg1)))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) ⟨2000 * t.val + p.val, hlt⟩ q
  exact upd_row (gatherAt (m ((c : Thread nD τ).loc main_arg0)) (srcOf (m ((c : Thread nD τ).loc main_arg1)))) (gatherAt (m ((c : Thread nD τ).loc main_arg0)) (dstOf (m ((c : Thread nD τ).loc main_arg1)))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ⟨2000 * t.val + p.val, hlt⟩ p q
    (blk_rowI m c t p _ rfl) (blk_rowJ m c t p _ rfl) (blk_W1 m c t) (blk_gain m c t) (blk_shift m c t) (blk_mean m c t)
    (blk_var m c t) (blk_W2 m c t) (blk_b2 m c t) (blk_W3 m c t) (blk_b3 m c t) (blk_W4 m c t) (blk_W5 m c t) (blk_b5 m c t)

/-- An index of the message array is in point t's block iff each coordinate is in the block's range on its axis. -/
theorem mem_blk14 (t : Fin cfg0.N) (i : S3200000x32.Idx) :
    i ∈ ((cfg0.win 14).blk t).view.set ↔ ∀ a : Fin 2, win0_14.index t a * S2000x32.size a ≤ (i a).val ∧ (i a).val < win0_14.index t a * S2000x32.size a + S2000x32.size a := by
  show i ∈ ((View.whole main_v25_0).slice (win0_14.rect t)).set ↔ _
  rw [View.set_slice_whole, Rect.mem_set_unit]
  exact Iff.rfl

/-- The blocks tile the message array: row r is in the block of point r / 2000, which writes back. -/
theorem cover14 (i : S3200000x32.Idx) :
    ∃ t : Fin cfg0.N, (cfg0.win 14).flush t = true ∧ i ∈ ((cfg0.win 14).blk t).view.set := by
  have hN : cfg0.N = 1600 := N_0
  have hi0 : (i 0).val < 3200000 := idx2_lt0 i
  have hi1 : (i 1).val < 32 := idx2_lt1 i
  obtain ⟨t, ht⟩ : ∃ t : Fin cfg0.N, t.val = (i 0).val / 2000 := ⟨⟨(i 0).val / 2000, by omega⟩, rfl⟩
  have h0 : win0_14.index t (0 : Fin 2) = t.val := (idx_rows t).2.2.2.2.1
  have h1 : win0_14.index t (1 : Fin 2) = 0 := (idx_rows t).2.2.2.2.2.1
  refine ⟨t, flush0_14 t, ?_⟩
  rw [mem_blk14]
  intro a
  match a with
  | ⟨0, _⟩ => show win0_14.index t (0 : Fin 2) * 2000 ≤ (i 0).val ∧ (i 0).val < win0_14.index t (0 : Fin 2) * 2000 + 2000; rw [h0, ht]; omega
  | ⟨1, _⟩ => show win0_14.index t (1 : Fin 2) * 32 ≤ (i 1).val ∧ (i 1).val < win0_14.index t (1 : Fin 2) * 32 + 32; rw [h1]; omega

/-- An index of the update array is in point t's block iff each coordinate is in the block's range on its axis. -/
theorem mem_blk15 (t : Fin cfg0.N) (i : S3200000x3.Idx) :
    i ∈ ((cfg0.win 15).blk t).view.set ↔ ∀ a : Fin 2, win0_15.index t a * S2000x3.size a ≤ (i a).val ∧ (i a).val < win0_15.index t a * S2000x3.size a + S2000x3.size a := by
  show i ∈ ((View.whole main_v25_1).slice (win0_15.rect t)).set ↔ _
  rw [View.set_slice_whole, Rect.mem_set_unit]
  exact Iff.rfl

/-- The blocks tile the update array: row r is in the block of point r / 2000, which writes back. -/
theorem cover15 (i : S3200000x3.Idx) :
    ∃ t : Fin cfg0.N, (cfg0.win 15).flush t = true ∧ i ∈ ((cfg0.win 15).blk t).view.set := by
  have hN : cfg0.N = 1600 := N_0
  have hi0 : (i 0).val < 3200000 := idx2_lt0 i
  have hi1 : (i 1).val < 3 := idx2_lt1 i
  obtain ⟨t, ht⟩ : ∃ t : Fin cfg0.N, t.val = (i 0).val / 2000 := ⟨⟨(i 0).val / 2000, by omega⟩, rfl⟩
  have h0 : win0_15.index t (0 : Fin 2) = t.val := (idx_rows t).2.2.2.2.2.2.1
  have h1 : win0_15.index t (1 : Fin 2) = 0 := (idx_rows t).2.2.2.2.2.2.2
  refine ⟨t, flush0_15 t, ?_⟩
  rw [mem_blk15]
  intro a
  match a with
  | ⟨0, _⟩ => show win0_15.index t (0 : Fin 2) * 2000 ≤ (i 0).val ∧ (i 0).val < win0_15.index t (0 : Fin 2) * 2000 + 2000; rw [h0, ht]; omega
  | ⟨1, _⟩ => show win0_15.index t (1 : Fin 2) * 3 ≤ (i 1).val ∧ (i 1).val < win0_15.index t (1 : Fin 2) * 3 + 3; rw [h1]; omega

/-- The region's message array after the run. -/
theorem final_msg (c : Dev nD) :
    (dats m 0 c).arrAt 14 cfg0.N = msgOut scaleK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) :=
  (dats m 0 c).arrAt_eq_of_cover 14 (msgOut scaleK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13))) (fun t _ => flushed_msg m c t) cover14

/-- The region's update array after the run. -/
theorem final_upd (c : Dev nD) :
    (dats m 0 c).arrAt 15 cfg0.N = updOut scaleK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (dats m 0 c).arrAt_eq_of_cover 15 (updOut scaleK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (fun t _ => flushed_upd m c t) cover15

end Cert.KernelIdeal.Arrays

end
-- ==== Proof.KernelTail.lean ====
/-
  The idealized kernel's whole run with both results named: the message array is the region's own, and the new node
  coordinates are the closing scatter-mean of the host lines after the region applied to the region's update array.
-/
import proofs.«161814_j936302870591_1_alg».proof.Proof.KernelArrays

noncomputable section

namespace Cert.KernelIdeal.Arrays

open Cert.KernelIdeal Cert.KernelIdeal.Gen Cert.Edge Idealize.ShloMosaic Idealize.ShloMosaic.TcCoe Idealize.ShloMosaic.ValueIdx
open Idealize.SL.Sem

variable (m : (ℓ : Loc nD τ sig) → Buf (Elt Ideal) ℓ) (ρ : Dev nD → PrngReg)

/-- The host lines after the region: the new node coordinates from the region's update array. -/
theorem tail_val (c : Dev nD) :
    Pipeline.afterTail₀ cfgs (dats m) 0 (V0 m) [hostOps1] c main_v40
      = nodeTail (m ((c : Thread nD τ).loc main_arg0)) (srcOf (m ((c : Thread nD τ).loc main_arg1))) ((dats m 0 c).arrAt 15 cfg0.N) := by
  -- Of the three buffers the closing lines read, two are no array of the region, so after the region they hold what they
  -- held when it was entered: the node coordinates as launched, and the source-node vector, row 0 of the edge list.
  have h0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  have h1 : Pipeline.withArrays (cfgs 0).spec c (V0 m c) (fun w => (dats m 0 c).arrAt w (cfgs 0).N) (Proc.devRef .tc main_v1)
      = srcOf (m ((c : Thread nD τ).loc main_arg1)) :=
    (Pipeline.withArrays_of_ne _ c (V0 m c) _ main_v1 (by exact (by decide : ∀ w, Pipeline.arrRef spec0 w ≠ main_v1))).trans
      (V_src m c)
  -- The third is the array of the region's last window, and holds what the region leaves there.
  have h2 : Pipeline.withArrays (cfgs 0).spec c (V0 m c) (fun w => (dats m 0 c).arrAt w (cfgs 0).N) (Proc.devRef .tc main_v25_1)
      = (dats m 0 c).arrAt 15 cfg0.N :=
    Pipeline.withArrays_arr spec0 launch0.win.arr_inj c _ _ 15
  -- Each of the twenty lines writes one buffer of its own and leaves every other as it was, so the last line's result read
  -- back through them is the lines' functions composed: coordinates + (scatter-sum of the updates / max(scatter-sum of
  -- ones, 1)) · 1, over those three buffers. That composition is the body of `nodeTail`, symbol for symbol.
  unfold Pipeline.afterTail₀
  show StableHlo.after hostOps1 _ (Proc.devRef .tc main_v40) = _
  after_results_simp
  rw [h0, h1, h2]
  unfold nodeTail
  with_reducible rfl

/-- Every weakly fair execution of the idealized kernel's @main terminates with the two results at these values and the
    arguments unchanged. -/
theorem run_values : θ_run defs (onTc (τ := τ) (main (F := Ideal))) ⟨m, fun _ => 0, ρ⟩ (fun r => ∀ c : Dev nD,
      r.2.mem ((c.tc : Thread nD τ).loc main_v40)
          = nodeTail (m ((c.tc : Thread nD τ).loc main_arg0)) (srcOf (m ((c.tc : Thread nD τ).loc main_arg1))) (updOut scaleK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))
      ∧ r.2.mem ((c.tc : Thread nD τ).loc main_v25_0) = msgOut scaleK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  -- One run gives every clause. The new coordinates' buffer is no array of the region: it holds what the closing lines
  -- leave, which is `nodeTail` of the region's update array (`tail_val`), and that array is `updOut` of the arguments. The
  -- message buffer is the array of the region's window 14, which is `msgOut` of the arguments. An argument that is a
  -- window's array is an input of the region, unchanged by it and written by no line before it; every other argument is
  -- written by no line at all.
  (θ_run defs _ _).mono (fun r h c => ⟨
      (((h c).2 main_v40 (Pipeline.mem_restRefs_of main_v40 (by decide) (by decide))).trans (tail_val m c)).trans
        (congrArg (nodeTail (m ((c : Thread nD τ).loc main_arg0)) (srcOf (m ((c : Thread nD τ).loc main_arg1)))) (final_upd m c)),
      ((h c).1 14).trans (final_msg m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c))),
      (((h c).2 main_arg10 (Pipeline.mem_restRefs_of main_arg10 (by decide) (by decide))).trans (W_main_arg10 m (dats m) c)),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      (((h c).2 main_arg13 (Pipeline.mem_restRefs_of main_arg13 (by decide) (by decide))).trans (W_main_arg13 m (dats m) c))⟩) (run_main m ρ)

end Cert.KernelIdeal.Arrays

end
-- ==== Proof.RefRowsA.lean ====
/-
  One edge of the reference, first half: the difference of the two gathered coordinate rows, and the first linear layer
  (the edge's two squashed invariants times the 2 x 32 weights), read off the reference's stages at edge e.
-/
import proofs.«161814_j936302870591_1_alg».proof.Proof.Gen.ReferenceIdeal.Read
import proofs.«161814_j936302870591_1_alg».proof.Proof.EdgeSpec

noncomputable section

namespace Cert.ReferenceIdeal.Rows

open Cert.ReferenceIdeal Cert.ReferenceIdeal.Read Cert.Edge Idealize.ShloMosaic Idealize.ShloMosaic.ValueIdx

/-- The reference's coordinate difference at edge e, coordinate d. -/
theorem ref_diff_at (x0 : (⟨S100000x3, .f32⟩ : BufTy).Contents (Elt Ideal)) (x1 : (⟨S2x3200000, .i32⟩ : BufTy).Contents (Elt Ideal)) (e : Fin 3200000) (d : Fin 3) :
    val_main_v18 (F := Ideal) x0 x1 (ix2 e d)
      = row (val_main_v10 (F := Ideal) x0 x1) e d - row (val_main_v17 (F := Ideal) x0 x1) e d := by
  -- the stage is the entrywise difference of the two gathered arrays, and a row's entry d is the array at (e, d)
  rfl

/-- The summation index of the two row sums: row e of the one-column result, summand k, is entry (e, k). -/
theorem sumIdx_sq (e : Fin 3200000) (k : Fin 3) :
    idx_main_v20 (idx_main_v21 (ix2 e (0 : Fin 1))) k = ix2 e k :=
  funext fun a => Fin.ext (by match a with | ⟨0, _⟩ => rfl | ⟨1, _⟩ => rfl)

theorem sumIdx_ip (e : Fin 3200000) (k : Fin 3) :
    idx_main_v27 (idx_main_v28 (ix2 e (0 : Fin 1))) k = ix2 e k :=
  funext fun a => Fin.ext (by match a with | ⟨0, _⟩ => rfl | ⟨1, _⟩ => rfl)

/-- The squashed squared distance of edge e: sign s * log1p |s| with s the sum over d of (a_d - b_d)^2. -/
theorem ref_sq_at (x0 : (⟨S100000x3, .f32⟩ : BufTy).Contents (Elt Ideal)) (x1 : (⟨S2x3200000, .i32⟩ : BufTy).Contents (Elt Ideal)) (e : Fin 3200000) :
    val_main_v25 (F := Ideal) x0 x1 (ix2 e (0 : Fin 1))
      = psi (∑ d : Fin 3, (row (val_main_v10 (F := Ideal) x0 x1) e d - row (val_main_v17 (F := Ideal) x0 x1) e d)
          * (row (val_main_v10 (F := Ideal) x0 x1) e d - row (val_main_v17 (F := Ideal) x0 x1) e d)) := by
  have hs : val_main_v21 (F := Ideal) x0 x1 (ix2 e (0 : Fin 1))
      = ∑ d : Fin 3, (row (val_main_v10 (F := Ideal) x0 x1) e d - row (val_main_v17 (F := Ideal) x0 x1) e d)
          * (row (val_main_v10 (F := Ideal) x0 x1) e d - row (val_main_v17 (F := Ideal) x0 x1) e d) := by
    rw [val_main_v21_apply, val_main_v20_apply, val_main_cst_apply, Ideal.ofBits_def, Ideal.ofBits_zero_f32, zero_add]
    refine Finset.sum_congr rfl fun k _ => ?_
    rw [sumIdx_sq]
    rfl
  rw [val_main_v25_apply, val_main_v22_apply, val_main_v24_apply, val_main_v23_apply, hs]
  rfl

/-- The squashed inner product of edge e: sign s * log1p |s| with s the sum over d of a_d * b_d. -/
theorem ref_ip_at (x0 : (⟨S100000x3, .f32⟩ : BufTy).Contents (Elt Ideal)) (x1 : (⟨S2x3200000, .i32⟩ : BufTy).Contents (Elt Ideal)) (e : Fin 3200000) :
    val_main_v32 (F := Ideal) x0 x1 (ix2 e (0 : Fin 1))
      = psi (∑ d : Fin 3, row (val_main_v10 (F := Ideal) x0 x1) e d * row (val_main_v17 (F := Ideal) x0 x1) e d) := by
  have hs : val_main_v28 (F := Ideal) x0 x1 (ix2 e (0 : Fin 1))
      = ∑ d : Fin 3, row (val_main_v10 (F := Ideal) x0 x1) e d * row (val_main_v17 (F := Ideal) x0 x1) e d := by
    rw [val_main_v28_apply, val_main_v27_apply, val_main_cst_3_apply, Ideal.ofBits_def, Ideal.ofBits_zero_f32, zero_add]
    refine Finset.sum_congr rfl fun k _ => ?_
    rw [sumIdx_ip]
    rfl
  rw [val_main_v32_apply, val_main_v29_apply, val_main_v31_apply, val_main_v30_apply, hs]
  rfl

/-- Column 0 of the two-column array of invariants is the first one-column piece. -/
theorem ref_cat_at_zero (x0 : (⟨S100000x3, .f32⟩ : BufTy).Contents (Elt Ideal)) (x1 : (⟨S2x3200000, .i32⟩ : BufTy).Contents (Elt Ideal)) (e : Fin 3200000) :
    val_main_v33 (F := Ideal) x0 x1 (ix2 e (0 : Fin 2)) = val_main_v25 (F := Ideal) x0 x1 (ix2 e (0 : Fin 1)) := by
  unfold val_main_v33
  refine concatenate_pair_apply_left (t := S3200000x2) (s₁ := S3200000x1) (s₂ := S3200000x1) (1 : Fin 2) _ _
    _ (ix2 e (0 : Fin 2)) rfl (ix2 e (0 : Fin 1)) ?_
  intro b
  match b with
  | ⟨0, _⟩ => rfl
  | ⟨1, _⟩ => rfl

/-- Column 1 of the two-column array of invariants is the second one-column piece. -/
theorem ref_cat_at_one (x0 : (⟨S100000x3, .f32⟩ : BufTy).Contents (Elt Ideal)) (x1 : (⟨S2x3200000, .i32⟩ : BufTy).Contents (Elt Ideal)) (e : Fin 3200000) :
    val_main_v33 (F := Ideal) x0 x1 (ix2 e (1 : Fin 2)) = val_main_v32 (F := Ideal) x0 x1 (ix2 e (0 : Fin 1)) := by
  unfold val_main_v33
  refine concatenate_pair_apply_right (t := S3200000x2) (s₁ := S3200000x1) (s₂ := S3200000x1) (1 : Fin 2) _ _
    _ (ix2 e (1 : Fin 2)) rfl rfl (ix2 e (0 : Fin 1)) ?_ ?_
  · intro b hb
    match b, hb with
    | ⟨0, _⟩, _ => rfl
    | ⟨1, _⟩, hb => exact absurd rfl hb
  · rfl

/-- The two-column array of invariants at (e, k) is the spec's k-th squashed invariant of edge e. -/
theorem ref_feat_at (x0 : (⟨S100000x3, .f32⟩ : BufTy).Contents (Elt Ideal)) (x1 : (⟨S2x3200000, .i32⟩ : BufTy).Contents (Elt Ideal)) (e : Fin 3200000) (k : Fin 2) :
    val_main_v33 (F := Ideal) x0 x1 (ix2 e k)
      = feat (row (val_main_v10 (F := Ideal) x0 x1) e) (row (val_main_v17 (F := Ideal) x0 x1) e) k := by
  match k with
  | ⟨0, _⟩ =>
    refine (ref_cat_at_zero x0 x1 e).trans ((ref_sq_at x0 x1 e).trans ?_)
    unfold feat
    exact (if_pos rfl).symm
  | ⟨1, _⟩ =>
    refine (ref_cat_at_one x0 x1 e).trans ((ref_ip_at x0 x1 e).trans ?_)
    unfold feat
    exact (if_neg fun h => Nat.one_ne_zero (congrArg Fin.val h)).symm

/-- The reference's first linear layer at edge e, feature j. -/
theorem ref_lin1_at (x0 : (⟨S100000x3, .f32⟩ : BufTy).Contents (Elt Ideal)) (x1 : (⟨S2x3200000, .i32⟩ : BufTy).Contents (Elt Ideal)) (x2 : (⟨S2x32, .f32⟩ : BufTy).Contents (Elt Ideal)) (e : Fin 3200000) (j : Fin 32) :
    val_main_v34 (F := Ideal) x0 x1 x2 (ix2 e j)
      = lin1 (row (val_main_v10 (F := Ideal) x0 x1) e) (row (val_main_v17 (F := Ideal) x0 x1) e) (mat x2) j := by
  -- the contraction over the two invariants: summand k is invariant k of edge e times weight (k, j)
  rw [val_main_v34_apply]
  unfold lin1
  refine Finset.sum_congr rfl fun k _ => ?_
  have hl : lidx_main_v34 (ix2 e j) k = ix2 e k :=
    funext fun a => Fin.ext (by match a with | ⟨0, _⟩ => rfl | ⟨1, _⟩ => rfl)
  have hr : ridx_main_v34 (ix2 e j) k = ix2 k j :=
    funext fun a => Fin.ext (by match a with | ⟨0, _⟩ => rfl | ⟨1, _⟩ => rfl)
  rw [hl, hr, ref_feat_at]
  rfl

end Cert.ReferenceIdeal.Rows

end
-- ==== Proof.RefRowsB.lean ====
/-
  One edge of the reference, second half: the message (normalisation, two layers, the gate) from the edge's first-layer
  features, and the clamped coordinate update from the edge's difference and message, read off the reference's stages at
  edge e.
-/
import proofs.«161814_j936302870591_1_alg».proof.Proof.Gen.ReferenceIdeal.Read
import proofs.«161814_j936302870591_1_alg».proof.Proof.EdgeSpec

noncomputable section

namespace Cert.ReferenceIdeal.Rows

open Cert.ReferenceIdeal Cert.ReferenceIdeal.Read Cert.Edge Idealize.ShloMosaic Idealize.ShloMosaic.ValueIdx

/-! ## The words the reference carries -/

/-- The single-precision word of 1 denotes 1. -/
theorem one_word : Ideal.ofBits .f32 0x3F800000#32 = 1 := IdealRules.sign_bit.ideal_onePat .f32

/-! ## The message -/

/-- The normalisation's scale at feature k is the gain divided by the square root of the variance plus ε. -/
theorem ref_scale_at (x3 x6 : (⟨S32, .f32⟩ : BufTy).Contents (Elt Ideal)) (k : Fin 32) :
    val_main_v41 (F := Ideal) x3 x6 (ix1 k) = scaleR (vec x3 k) (vec x6 k) := by
  rw [val_main_v41_apply, val_main_v40_apply, val_main_v39_apply, val_main_v38_apply, val_main_cst_4_apply]
  rfl

/-- After the first max with 0 the reference holds, at edge e and feature k, the normalised, shifted first-layer feature
    cut off below at 0: the mean, the scale and the shift are rows broadcast down the edges, so each is read at k. -/
theorem ref_hid1_at (x0 : (⟨S100000x3, .f32⟩ : BufTy).Contents (Elt Ideal)) (x1 : (⟨S2x3200000, .i32⟩ : BufTy).Contents (Elt Ideal)) (x2 : (⟨S2x32, .f32⟩ : BufTy).Contents (Elt Ideal)) (x3 x4 x5 x6 : (⟨S32, .f32⟩ : BufTy).Contents (Elt Ideal))
    (e : Fin 3200000) (k : Fin 32) :
    val_main_v48 (F := Ideal) x0 x1 x2 x3 x4 x5 x6 (ix2 e k)
      = hid1 (row (val_main_v34 (F := Ideal) x0 x1 x2) e) (vec x5) (fun k => scaleR (vec x3 k) (vec x6 k)) (vec x4) k := by
  have imean : idx_main_v35 (idx_main_v36 (ix2 e k)) = ix1 k :=
    funext fun a => Fin.ext (by match a with | ⟨0, _⟩ => rfl)
  have iscale : idx_main_v42 (idx_main_v43 (ix2 e k)) = ix1 k :=
    funext fun a => Fin.ext (by match a with | ⟨0, _⟩ => rfl)
  have ishift : idx_main_v45 (idx_main_v46 (ix2 e k)) = ix1 k :=
    funext fun a => Fin.ext (by match a with | ⟨0, _⟩ => rfl)
  rw [val_main_v48_apply, val_main_v47_apply, val_main_v44_apply, val_main_v37_apply, val_main_v36_apply,
    val_main_v35_apply, val_main_v43_apply, val_main_v42_apply, val_main_v46_apply, val_main_v45_apply,
    val_main_call0_v0_apply, val_main_call0_cst_apply, imean, iscale, ishift, ref_scale_at]
  simp only [Ideal.ofBits_def, Ideal.ofBits_zero_f32]
  rfl

/-- After the second max with 0 the reference holds, at edge e and feature k, the second layer of the edge: the sum over
    l of the first hidden feature l times the weight (l, k), plus the bias at k, cut off below at 0. -/
theorem ref_hid2_at (x0 : (⟨S100000x3, .f32⟩ : BufTy).Contents (Elt Ideal)) (x1 : (⟨S2x3200000, .i32⟩ : BufTy).Contents (Elt Ideal)) (x2 : (⟨S2x32, .f32⟩ : BufTy).Contents (Elt Ideal)) (x3 x4 x5 x6 : (⟨S32, .f32⟩ : BufTy).Contents (Elt Ideal)) (x7 : (⟨S32x32, .f32⟩ : BufTy).Contents (Elt Ideal)) (x8 : (⟨S32, .f32⟩ : BufTy).Contents (Elt Ideal))
    (e : Fin 3200000) (k : Fin 32) :
    val_main_v53 (F := Ideal) x0 x1 x2 x3 x4 x5 x6 x7 x8 (ix2 e k)
      = hid2 (hid1 (row (val_main_v34 (F := Ideal) x0 x1 x2) e) (vec x5) (fun k => scaleR (vec x3 k) (vec x6 k)) (vec x4))
          (mat x7) (vec x8) k := by
  have ileft : ∀ l : Fin 32, lidx_main_v49 (ix2 e k) l = ix2 e l := fun l =>
    funext fun a => Fin.ext (by match a with | ⟨0, _⟩ => rfl | ⟨1, _⟩ => rfl)
  have iright : ∀ l : Fin 32, ridx_main_v49 (ix2 e k) l = ix2 l k := fun l =>
    funext fun a => Fin.ext (by match a with | ⟨0, _⟩ => rfl | ⟨1, _⟩ => rfl)
  have ibias : idx_main_v50 (idx_main_v51 (ix2 e k)) = ix1 k :=
    funext fun a => Fin.ext (by match a with | ⟨0, _⟩ => rfl)
  rw [val_main_v53_apply, val_main_v52_apply, val_main_v49_apply, val_main_v51_apply, val_main_v50_apply,
    val_main_call1_v0_apply, val_main_call1_cst_apply, ibias]
  simp only [ileft, iright, ref_hid1_at, Ideal.ofBits_def, Ideal.ofBits_zero_f32]
  rfl

/-- The reference's gate at edge e: one over one plus the exponential of minus the gate's linear form, which is the
    logistic function of that form; the form is the sum over l of the second hidden feature l times the weight l, plus
    the one bias. -/
theorem ref_gate_at (x0 : (⟨S100000x3, .f32⟩ : BufTy).Contents (Elt Ideal)) (x1 : (⟨S2x3200000, .i32⟩ : BufTy).Contents (Elt Ideal)) (x2 : (⟨S2x32, .f32⟩ : BufTy).Contents (Elt Ideal)) (x3 x4 x5 x6 : (⟨S32, .f32⟩ : BufTy).Contents (Elt Ideal)) (x7 : (⟨S32x32, .f32⟩ : BufTy).Contents (Elt Ideal)) (x8 : (⟨S32, .f32⟩ : BufTy).Contents (Elt Ideal)) (x12 : (⟨S32x1, .f32⟩ : BufTy).Contents (Elt Ideal)) (x13 : (⟨S1, .f32⟩ : BufTy).Contents (Elt Ideal))
    (e : Fin 3200000) :
    val_main_v63 (F := Ideal) x0 x1 x2 x3 x4 x5 x6 x7 x8 x12 x13 (ix2 e 0)
      = gate (hid2 (hid1 (row (val_main_v34 (F := Ideal) x0 x1 x2) e) (vec x5) (fun k => scaleR (vec x3 k) (vec x6 k)) (vec x4))
          (mat x7) (vec x8)) (col x12) (x13 (ix1 0)) := by
  have ileft : ∀ l : Fin 32, lidx_main_v54 (ix2 e (0 : Fin 1)) l = ix2 e l := fun l =>
    funext fun a => Fin.ext (by match a with | ⟨0, _⟩ => rfl | ⟨1, _⟩ => rfl)
  have iright : ∀ l : Fin 32, ridx_main_v54 (ix2 e (0 : Fin 1)) l = ix2 l 0 := fun l =>
    funext fun a => Fin.ext (by match a with | ⟨0, _⟩ => rfl | ⟨1, _⟩ => rfl)
  have ibias : idx_main_v55 (idx_main_v56 (ix2 e (0 : Fin 1))) = ix1 0 :=
    funext fun a => Fin.ext (by match a with | ⟨0, _⟩ => rfl)
  rw [val_main_v63_apply, val_main_v62_apply, val_main_cst_6_apply, val_main_v61_apply, val_main_v60_apply,
    val_main_cst_5_apply, val_main_v59_apply, val_main_v58_apply, val_main_v57_apply, val_main_v54_apply,
    val_main_v56_apply, val_main_v55_apply, ibias]
  simp only [ileft, iright, ref_hid2_at, Ideal.ofBits_def, one_word, Ideal.hostDivf_def, Ideal.addf_def,
    Ideal.hostUnary_exp_def, Ideal.hostNegf_def, Ideal.negf_def]
  unfold gate Ideal.logistic col
  rfl

/-- The reference's message at edge e, feature j, from the edge's first-layer features. -/
theorem ref_msg_at (x0 : (⟨S100000x3, .f32⟩ : BufTy).Contents (Elt Ideal)) (x1 : (⟨S2x3200000, .i32⟩ : BufTy).Contents (Elt Ideal)) (x2 : (⟨S2x32, .f32⟩ : BufTy).Contents (Elt Ideal)) (x3 x4 x5 x6 : (⟨S32, .f32⟩ : BufTy).Contents (Elt Ideal)) (x7 : (⟨S32x32, .f32⟩ : BufTy).Contents (Elt Ideal)) (x8 : (⟨S32, .f32⟩ : BufTy).Contents (Elt Ideal)) (x12 : (⟨S32x1, .f32⟩ : BufTy).Contents (Elt Ideal)) (x13 : (⟨S1, .f32⟩ : BufTy).Contents (Elt Ideal))
    (e : Fin 3200000) (j : Fin 32) :
    val_main_v65 (F := Ideal) x0 x1 x2 x3 x4 x5 x6 x7 x8 x12 x13 (ix2 e j)
      = msg (row (val_main_v34 (F := Ideal) x0 x1 x2) e) (vec x5) (fun k => scaleR (vec x3 k) (vec x6 k)) (vec x4) (mat x7)
          (vec x8) (col x12) (x13 (ix1 0)) j := by
  -- the gate is one column, broadcast across the 32 features: at (e, j) it is read at (e, 0)
  have igate : idx_main_v64 (ix2 e j) = ix2 e 0 :=
    funext fun a => Fin.ext (by match a with | ⟨0, _⟩ => rfl | ⟨1, _⟩ => rfl)
  rw [val_main_v65_apply, val_main_v64_apply, igate, ref_hid2_at, ref_gate_at]
  rfl

/-! ## The coordinate update -/

/-- After the third max with 0 the reference holds, at edge e and feature l, the update's hidden layer: the sum over l'
    of the message feature l' times the weight (l', l), plus the bias at l, cut off below at 0. -/
theorem ref_hid3_at (x0 : (⟨S100000x3, .f32⟩ : BufTy).Contents (Elt Ideal)) (x1 : (⟨S2x3200000, .i32⟩ : BufTy).Contents (Elt Ideal)) (x2 : (⟨S2x32, .f32⟩ : BufTy).Contents (Elt Ideal)) (x3 x4 x5 x6 : (⟨S32, .f32⟩ : BufTy).Contents (Elt Ideal)) (x7 : (⟨S32x32, .f32⟩ : BufTy).Contents (Elt Ideal)) (x8 : (⟨S32, .f32⟩ : BufTy).Contents (Elt Ideal)) (x9 : (⟨S32x32, .f32⟩ : BufTy).Contents (Elt Ideal)) (x10 : (⟨S32, .f32⟩ : BufTy).Contents (Elt Ideal))
    (x12 : (⟨S32x1, .f32⟩ : BufTy).Contents (Elt Ideal)) (x13 : (⟨S1, .f32⟩ : BufTy).Contents (Elt Ideal))
    (e : Fin 3200000) (l : Fin 32) :
    val_main_v70 (F := Ideal) x0 x1 x2 x3 x4 x5 x6 x7 x8 x9 x10 x12 x13 (ix2 e l)
      = max ((∑ l' : Fin 32, row (val_main_v65 (F := Ideal) x0 x1 x2 x3 x4 x5 x6 x7 x8 x12 x13) e l' * mat x9 l' l)
          + vec x10 l) 0 := by
  have ileft : ∀ l' : Fin 32, lidx_main_v66 (ix2 e l) l' = ix2 e l' := fun l' =>
    funext fun a => Fin.ext (by match a with | ⟨0, _⟩ => rfl | ⟨1, _⟩ => rfl)
  have iright : ∀ l' : Fin 32, ridx_main_v66 (ix2 e l) l' = ix2 l' l := fun l' =>
    funext fun a => Fin.ext (by match a with | ⟨0, _⟩ => rfl | ⟨1, _⟩ => rfl)
  have ibias : idx_main_v67 (idx_main_v68 (ix2 e l)) = ix1 l :=
    funext fun a => Fin.ext (by match a with | ⟨0, _⟩ => rfl)
  rw [val_main_v70_apply, val_main_v69_apply, val_main_v66_apply, val_main_v68_apply, val_main_v67_apply,
    val_main_call2_v0_apply, val_main_call2_cst_apply, ibias]
  simp only [ileft, iright, Ideal.ofBits_def, Ideal.ofBits_zero_f32]
  rfl

/-- The reference's scalar φ at edge e: the sum over l of the update's hidden feature l times the weight l. -/
theorem ref_phi_at (x0 : (⟨S100000x3, .f32⟩ : BufTy).Contents (Elt Ideal)) (x1 : (⟨S2x3200000, .i32⟩ : BufTy).Contents (Elt Ideal)) (x2 : (⟨S2x32, .f32⟩ : BufTy).Contents (Elt Ideal)) (x3 x4 x5 x6 : (⟨S32, .f32⟩ : BufTy).Contents (Elt Ideal)) (x7 : (⟨S32x32, .f32⟩ : BufTy).Contents (Elt Ideal)) (x8 : (⟨S32, .f32⟩ : BufTy).Contents (Elt Ideal)) (x9 : (⟨S32x32, .f32⟩ : BufTy).Contents (Elt Ideal)) (x10 : (⟨S32, .f32⟩ : BufTy).Contents (Elt Ideal))
    (x11 x12 : (⟨S32x1, .f32⟩ : BufTy).Contents (Elt Ideal)) (x13 : (⟨S1, .f32⟩ : BufTy).Contents (Elt Ideal))
    (e : Fin 3200000) :
    val_main_v71 (F := Ideal) x0 x1 x2 x3 x4 x5 x6 x7 x8 x9 x10 x11 x12 x13 (ix2 e 0)
      = phi (row (val_main_v65 (F := Ideal) x0 x1 x2 x3 x4 x5 x6 x7 x8 x12 x13) e) (mat x9) (vec x10) (col x11) := by
  have ileft : ∀ l : Fin 32, lidx_main_v71 (ix2 e (0 : Fin 1)) l = ix2 e l := fun l =>
    funext fun a => Fin.ext (by match a with | ⟨0, _⟩ => rfl | ⟨1, _⟩ => rfl)
  have iright : ∀ l : Fin 32, ridx_main_v71 (ix2 e (0 : Fin 1)) l = ix2 l 0 := fun l =>
    funext fun a => Fin.ext (by match a with | ⟨0, _⟩ => rfl | ⟨1, _⟩ => rfl)
  rw [val_main_v71_apply]
  simp only [ileft, iright, ref_hid3_at]
  rfl

/-- The reference's clamped coordinate update at edge e, coordinate d, from the edge's difference and message. -/
theorem ref_upd_at (x0 : (⟨S100000x3, .f32⟩ : BufTy).Contents (Elt Ideal)) (x1 : (⟨S2x3200000, .i32⟩ : BufTy).Contents (Elt Ideal)) (x2 : (⟨S2x32, .f32⟩ : BufTy).Contents (Elt Ideal)) (x3 x4 x5 x6 : (⟨S32, .f32⟩ : BufTy).Contents (Elt Ideal)) (x7 : (⟨S32x32, .f32⟩ : BufTy).Contents (Elt Ideal)) (x8 : (⟨S32, .f32⟩ : BufTy).Contents (Elt Ideal)) (x9 : (⟨S32x32, .f32⟩ : BufTy).Contents (Elt Ideal)) (x10 : (⟨S32, .f32⟩ : BufTy).Contents (Elt Ideal))
    (x11 x12 : (⟨S32x1, .f32⟩ : BufTy).Contents (Elt Ideal)) (x13 : (⟨S1, .f32⟩ : BufTy).Contents (Elt Ideal))
    (e : Fin 3200000) (d : Fin 3) :
    val_main_v74 (F := Ideal) x0 x1 x2 x3 x4 x5 x6 x7 x8 x9 x10 x11 x12 x13 (ix2 e d)
      = upd (row (val_main_v18 (F := Ideal) x0 x1) e) (row (val_main_v65 (F := Ideal) x0 x1 x2 x3 x4 x5 x6 x7 x8 x12 x13) e)
          (mat x9) (vec x10) (col x11) d := by
  -- φ is one column, broadcast across the 3 coordinates: at (e, d) it is read at (e, 0)
  have iphi : idx_main_v72 (ix2 e d) = ix2 e 0 :=
    funext fun a => Fin.ext (by match a with | ⟨0, _⟩ => rfl | ⟨1, _⟩ => rfl)
  rw [val_main_v74_apply, val_main_call3_v4_apply, val_main_call3_v3_apply, val_main_cst_8_apply,
    val_main_call3_v2_apply, val_main_call3_v1_apply, val_main_call3_v0_apply, val_main_cst_7_apply,
    val_main_v73_apply, val_main_v72_apply, iphi, ref_phi_at]
  rfl

end Cert.ReferenceIdeal.Rows

end
-- ==== Proof.ScaleLaw.lean ====
/-
  The one law between the two programs: for a variance v ≥ 0 the scale g · (v + ε)^(-1/2) and the scale g / √(v + ε)
  are the same extended real, because ε > 0 puts v + ε strictly above zero, where the inverse square root is the inverse
  of the square root (at v = ∞ both are 0).
-/
import proofs.«161814_j936302870591_1_alg».proof.Proof.EdgeSpec
import Idealize.ShloMosaic.PureOps.Ideal.Laws

noncomputable section

namespace Cert.Edge

open Idealize.ShloMosaic

/-- The word of ε read as a single-precision number: sign bit 0, exponent field 110, fraction field 2606508, hence the
    normal number (2²³ + 2606508) · 2^(110 - 127 - 23). The pattern is evaluated here and nowhere else. -/
theorem eps_val :
    eps = (((1 : ℝ) * ((2 ^ 23 + 2606508 : ℕ) : ℝ) * (2 : ℝ) ^ ((110 : Int) - 127 - 23) : ℝ) : EReal) := by
  simp [eps, Ideal.ofBits, Ideal.ieee, -EReal.coe_mul]

/-- The ε both programs carry is a positive real. -/
theorem eps_pos : ∃ r : ℝ, 0 < r ∧ eps = (r : EReal) :=
  -- a positive natural number times a power of two
  ⟨_, by positivity, eps_val⟩

/-- For a non-negative variance the two spellings of the scale agree. -/
theorem scale_eq (g v : EReal) (hv : 0 ≤ v) : scaleR g v = scaleK g v := by
  obtain ⟨e, he, hE⟩ := eps_pos
  unfold scaleR scaleK
  rw [hE]
  induction v using EReal.rec with
  | bot => exact absurd hv (by simp)
  | top =>
    -- ∞ + ε = ∞; √∞ = ∞ and ∞⁻¹ = 0, so the quotient is g · 0; the inverse square root of ∞ is 0 as well
    rw [EReal.top_add_coe, Ideal.sqrt_top, Ideal.rsqrt_top, Ideal.div, if_neg EReal.top_ne_zero, EReal.inv_top]
  | coe r =>
    -- v = r real with 0 ≤ r, so r + ε > 0: √(r + ε) is a nonzero real, dividing by it is multiplying by its
    -- reciprocal, and the inverse square root of r + ε is that same reciprocal
    have hr : 0 ≤ r := by exact_mod_cast hv
    have hpos : 0 < r + e := by linarith
    have hs : Real.sqrt (r + e) ≠ 0 := (Real.sqrt_pos.mpr hpos).ne'
    rw [← EReal.coe_add, Ideal.sqrt_coe, Ideal.rsqrt_coe, if_neg (not_lt.mpr hpos.le), if_neg (not_lt.mpr hpos.le),
      if_neg hpos.ne', Ideal.div_coe hs, one_div]

end Cert.Edge

end
-- ==== Proof.Bridge.lean ====
/-
  The reference's two results as the shared functions of @main's arguments: its message stage is the edge layer's message
  array and its last stage is the closing scatter-mean of its update stage, with the scale spelt as a quotient; and where
  the variance is non-negative the quotient spelling may be replaced by the product spelling.
-/
import proofs.«161814_j936302870591_1_alg».proof.Proof.RefRowsA
import proofs.«161814_j936302870591_1_alg».proof.Proof.RefRowsB
import proofs.«161814_j936302870591_1_alg».proof.Proof.HostParts
import proofs.«161814_j936302870591_1_alg».proof.Proof.ScaleLaw

noncomputable section

namespace Cert.Edge

open Idealize.ShloMosaic Idealize.ShloMosaic.ValueIdx

/-- Where the variance is non-negative the two spellings of the scale give the same message … -/
theorem msgAt_scale (XI XJ : FVec Ideal ⟨2, ![3200000, 3]⟩ .f32) (W1 : FVec Ideal ⟨2, ![2, 32]⟩ .f32)
    (g beta mean var : FVec Ideal ⟨1, ![32]⟩ .f32) (W2 : FVec Ideal ⟨2, ![32, 32]⟩ .f32) (b2 : FVec Ideal ⟨1, ![32]⟩ .f32)
    (W5 : FVec Ideal ⟨2, ![32, 1]⟩ .f32) (b5 : FVec Ideal ⟨1, ![1]⟩ .f32) (hv : ∀ j : Fin 32, 0 ≤ var (ix1 j)) :
    msgAt scaleR XI XJ W1 g beta mean var W2 b2 W5 b5 = msgAt scaleK XI XJ W1 g beta mean var W2 b2 W5 b5 := by
  funext e j
  unfold msgAt
  rw [show (fun k => scaleR (vec g k) (vec var k)) = fun k => scaleK (vec g k) (vec var k) from
    funext fun k => scale_eq _ _ (hv k)]

/-- … and the same update. -/
theorem updAt_scale (XI XJ : FVec Ideal ⟨2, ![3200000, 3]⟩ .f32) (W1 : FVec Ideal ⟨2, ![2, 32]⟩ .f32)
    (g beta mean var : FVec Ideal ⟨1, ![32]⟩ .f32) (W2 : FVec Ideal ⟨2, ![32, 32]⟩ .f32) (b2 : FVec Ideal ⟨1, ![32]⟩ .f32)
    (W3 : FVec Ideal ⟨2, ![32, 32]⟩ .f32) (b3 : FVec Ideal ⟨1, ![32]⟩ .f32) (W4 W5 : FVec Ideal ⟨2, ![32, 1]⟩ .f32)
    (b5 : FVec Ideal ⟨1, ![1]⟩ .f32) (hv : ∀ j : Fin 32, 0 ≤ var (ix1 j)) :
    updAt scaleR XI XJ W1 g beta mean var W2 b2 W3 b3 W4 W5 b5 = updAt scaleK XI XJ W1 g beta mean var W2 b2 W3 b3 W4 W5 b5 := by
  funext e d
  unfold updAt
  rw [msgAt_scale XI XJ W1 g beta mean var W2 b2 W5 b5 hv]

end Cert.Edge

namespace Cert.ReferenceIdeal.Bridge

open Cert.ReferenceIdeal Cert.ReferenceIdeal.Read Cert.ReferenceIdeal.Rows Cert.Edge Idealize.ShloMosaic Idealize.ShloMosaic.ValueIdx

/-- The reference's source-node vector is the shared one. -/
theorem src_eq (x1 : (⟨S2x3200000, .i32⟩ : BufTy).Contents (Elt Ideal)) : val_main_v1 (F := Ideal) x1 = srcOf x1 := by
  unfold val_main_v1 val_main_v0 srcOf
  rfl

/-- Likewise the destination-node vector. -/
theorem dst_eq (x1 : (⟨S2x3200000, .i32⟩ : BufTy).Contents (Elt Ideal)) : val_main_v3 (F := Ideal) x1 = dstOf x1 := by
  unfold val_main_v3 val_main_v2 dstOf
  rfl

/-- The reference's two gathered coordinate arrays are the shared ones. -/
theorem xi_eq (x0 : (⟨S100000x3, .f32⟩ : BufTy).Contents (Elt Ideal)) (x1 : (⟨S2x3200000, .i32⟩ : BufTy).Contents (Elt Ideal)) :
    val_main_v10 (F := Ideal) x0 x1 = gatherAt x0 (srcOf x1) := by
  rw [← src_eq]
  unfold val_main_v10 val_main_v9 val_main_v8 val_main_v7 val_main_v6 val_main_v5 val_main_v4 val_main_c_0 val_main_c gatherAt
  rfl
theorem xj_eq (x0 : (⟨S100000x3, .f32⟩ : BufTy).Contents (Elt Ideal)) (x1 : (⟨S2x3200000, .i32⟩ : BufTy).Contents (Elt Ideal)) :
    val_main_v17 (F := Ideal) x0 x1 = gatherAt x0 (dstOf x1) := by
  rw [← dst_eq]
  unfold val_main_v17 val_main_v16 val_main_v15 val_main_v14 val_main_v13 val_main_v12 val_main_v11 val_main_c_2 val_main_c_1 gatherAt
  rfl

/-- The reference's message stage is the edge layer's message array, the scale spelt as a quotient. -/
theorem msg_eq (x0 : (⟨S100000x3, .f32⟩ : BufTy).Contents (Elt Ideal)) (x1 : (⟨S2x3200000, .i32⟩ : BufTy).Contents (Elt Ideal))
    (x2 : (⟨S2x32, .f32⟩ : BufTy).Contents (Elt Ideal)) (x3 x4 x5 x6 : (⟨S32, .f32⟩ : BufTy).Contents (Elt Ideal))
    (x7 : (⟨S32x32, .f32⟩ : BufTy).Contents (Elt Ideal)) (x8 : (⟨S32, .f32⟩ : BufTy).Contents (Elt Ideal))
    (x12 : (⟨S32x1, .f32⟩ : BufTy).Contents (Elt Ideal)) (x13 : (⟨S1, .f32⟩ : BufTy).Contents (Elt Ideal)) :
    val_main_v65 (F := Ideal) x0 x1 x2 x3 x4 x5 x6 x7 x8 x12 x13 = msgOut scaleR x0 x1 x2 x3 x4 x5 x6 x7 x8 x12 x13 := by
  funext i
  obtain ⟨e, j, rfl⟩ : ∃ (e : Fin 3200000) (j : Fin 32), i = ix2 e j := ⟨i 0, i 1, eq_ix2 i⟩
  refine (ref_msg_at x0 x1 x2 x3 x4 x5 x6 x7 x8 x12 x13 e j).trans ?_
  show _ = msgAt scaleR (gatherAt x0 (srcOf x1)) (gatherAt x0 (dstOf x1)) x2 x3 x4 x5 x6 x7 x8 x12 x13 e j
  unfold msgAt
  rw [← xi_eq x0 x1, ← xj_eq x0 x1]
  -- the edge's first-layer features are the first linear layer of its two coordinate rows
  have hlin : row (val_main_v34 (F := Ideal) x0 x1 x2) e
      = lin1 (row (val_main_v10 (F := Ideal) x0 x1) e) (row (val_main_v17 (F := Ideal) x0 x1) e) (mat x2) :=
    funext fun k => ref_lin1_at x0 x1 x2 e k
  rw [hlin]

/-- The reference's update stage is the edge layer's update array, the scale spelt as a quotient. -/
theorem upd_eq (x0 : (⟨S100000x3, .f32⟩ : BufTy).Contents (Elt Ideal)) (x1 : (⟨S2x3200000, .i32⟩ : BufTy).Contents (Elt Ideal))
    (x2 : (⟨S2x32, .f32⟩ : BufTy).Contents (Elt Ideal)) (x3 x4 x5 x6 : (⟨S32, .f32⟩ : BufTy).Contents (Elt Ideal))
    (x7 : (⟨S32x32, .f32⟩ : BufTy).Contents (Elt Ideal)) (x8 : (⟨S32, .f32⟩ : BufTy).Contents (Elt Ideal))
    (x9 : (⟨S32x32, .f32⟩ : BufTy).Contents (Elt Ideal)) (x10 : (⟨S32, .f32⟩ : BufTy).Contents (Elt Ideal))
    (x11 x12 : (⟨S32x1, .f32⟩ : BufTy).Contents (Elt Ideal)) (x13 : (⟨S1, .f32⟩ : BufTy).Contents (Elt Ideal)) :
    val_main_v74 (F := Ideal) x0 x1 x2 x3 x4 x5 x6 x7 x8 x9 x10 x11 x12 x13
      = updOut scaleR x0 x1 x2 x3 x4 x5 x6 x7 x8 x9 x10 x11 x12 x13 := by
  funext i
  obtain ⟨e, d, rfl⟩ : ∃ (e : Fin 3200000) (d : Fin 3), i = ix2 e d := ⟨i 0, i 1, eq_ix2 i⟩
  refine (ref_upd_at x0 x1 x2 x3 x4 x5 x6 x7 x8 x9 x10 x11 x12 x13 e d).trans ?_
  show _ = updAt scaleR (gatherAt x0 (srcOf x1)) (gatherAt x0 (dstOf x1)) x2 x3 x4 x5 x6 x7 x8 x9 x10 x11 x12 x13 e d
  unfold updAt
  rw [← xi_eq x0 x1, ← xj_eq x0 x1]
  -- the edge's difference row and its message row, from the stages before
  have hdiff : row (val_main_v18 (F := Ideal) x0 x1) e
      = fun d' => row (val_main_v10 (F := Ideal) x0 x1) e d' - row (val_main_v17 (F := Ideal) x0 x1) e d' :=
    funext fun d' => ref_diff_at x0 x1 e d'
  have hmsg : row (val_main_v65 (F := Ideal) x0 x1 x2 x3 x4 x5 x6 x7 x8 x12 x13) e
      = msgAt scaleR (val_main_v10 (F := Ideal) x0 x1) (val_main_v17 (F := Ideal) x0 x1) x2 x3 x4 x5 x6 x7 x8 x12 x13 e := by
    funext k
    have h := congrFun (msg_eq x0 x1 x2 x3 x4 x5 x6 x7 x8 x12 x13) (ix2 e k)
    rw [xi_eq x0 x1, xj_eq x0 x1]
    exact h
  rw [hdiff, hmsg]

/-- The reference's last stage is the closing scatter-mean of its update stage. -/
theorem tail_eq (x0 : (⟨S100000x3, .f32⟩ : BufTy).Contents (Elt Ideal)) (x1 : (⟨S2x3200000, .i32⟩ : BufTy).Contents (Elt Ideal))
    (x2 : (⟨S2x32, .f32⟩ : BufTy).Contents (Elt Ideal)) (x3 x4 x5 x6 : (⟨S32, .f32⟩ : BufTy).Contents (Elt Ideal))
    (x7 : (⟨S32x32, .f32⟩ : BufTy).Contents (Elt Ideal)) (x8 : (⟨S32, .f32⟩ : BufTy).Contents (Elt Ideal))
    (x9 : (⟨S32x32, .f32⟩ : BufTy).Contents (Elt Ideal)) (x10 : (⟨S32, .f32⟩ : BufTy).Contents (Elt Ideal))
    (x11 x12 : (⟨S32x1, .f32⟩ : BufTy).Contents (Elt Ideal)) (x13 : (⟨S1, .f32⟩ : BufTy).Contents (Elt Ideal)) :
    val_main_v89 (F := Ideal) x0 x1 x2 x3 x4 x5 x6 x7 x8 x9 x10 x11 x12 x13
      = nodeTail x0 (srcOf x1) (val_main_v74 (F := Ideal) x0 x1 x2 x3 x4 x5 x6 x7 x8 x9 x10 x11 x12 x13) := by
  -- stage by stage the reference's last fifteen lines are the closing scatter-mean, applied to the update stage at the
  -- source-node vector
  rw [← src_eq]
  unfold val_main_v89 val_main_v88 val_main_v87 val_main_v86 val_main_v85 val_main_v84 val_main_v83 val_main_v82 val_main_v81
    val_main_v80 val_main_v79 val_main_v78 val_main_v77 val_main_v76 val_main_v75 val_main_cst_13 val_main_cst_12 val_main_cst_11
    val_main_cst_10 val_main_cst_9 nodeTail
  rfl

end Cert.ReferenceIdeal.Bridge

end
-- ==== Proof.PreVar.lean ====
/-
  What the precondition says of the variance input: every entry is at least zero.
-/
import proofs.«161814_j936302870591_1_alg».proof.Pre_finite_inputs
import proofs.«161814_j936302870591_1_alg».proof.Proof.Gen.Pre_finite_inputs
import Idealize.ShloMosaic.PureOps.Ideal.Laws
import Idealize.ShloMosaic.Lib.ValueIdx
import Idealize.ShloMosaic.Lib.ReduceAll

noncomputable section

namespace Cert.Edge

open Cert.Pre_finite_inputs Idealize.ShloMosaic Idealize.ShloMosaic.ValueIdx

/-- The last stretch of the precondition is a conjunction whose final conjunct is "every entry of the variance is ≥ 0":
    the conjunction of all entrywise comparisons v ≥ 0, started from 1. If the stretch is 1, so is that conjunct, so is
    every comparison in it, and the comparison at entry j against the word of +0 (which is the real 0) says 0 ≤ v_j. -/
theorem part3_var (a6 : FVec Ideal S32 .f32) (a12 : FVec Ideal S32x1 .f32) (a13 : FVec Ideal S1 .f32)
    (v48 : IVec S_ 1) (v49 v50 : FVec Ideal S32x1 .f32)
    (e : fn_part3 (F := Ideal) a6 a12 a13 v48 v49 v50 ix0 = 1#1) (j : Fin 32) : 0 ≤ a6 (ix1 j) := by
  -- a shape with no axes has one index
  haveI : Subsingleton S_.Idx := ⟨fun a b => funext fun d => d.elim0⟩
  unfold fn_part3 at e
  dsimp only at e
  -- the right conjunct of the outermost conjunction
  have e2 := (IntOp.andi_eq_one.1 e).2
  -- a conjunction over all entries that is 1 is 1 at entry j
  have e3 := Host.reduce_andi_all _ _ _ _ _ e2 (ix1 j)
  -- at entry j the comparison is of v_j with the scalar constant, the word of +0
  have e4 : Ideal.cmp .oge (a6 (ix1 j)) (Ideal.ofBits .f32 0x00000000#32) = 1#1 := e3
  rw [Ideal.ofBits_zero_f32] at e4
  -- were 0 ≤ v_j false the comparison would be 0, not 1
  by_contra hneg
  have e5 : Ideal.cmp .oge (a6 (ix1 j)) 0 = 0#1 := by simp [Ideal.cmp, hneg]
  rw [e5] at e4
  exact absurd e4 (by decide)

/-- Under the precondition the variance (the seventh argument) is entrywise non-negative. -/
theorem var_nonneg (a0 : FVec Ideal S100000x3 .f32) (a1 : IVec S2x3200000 32) (a2 : FVec Ideal S2x32 .f32)
    (a3 a4 a5 a6 : FVec Ideal S32 .f32) (a7 : FVec Ideal S32x32 .f32) (a8 : FVec Ideal S32 .f32)
    (a9 : FVec Ideal S32x32 .f32) (a10 : FVec Ideal S32 .f32) (a11 a12 : FVec Ideal S32x1 .f32) (a13 : FVec Ideal S1 .f32)
    (h : Cert.Pre_finite_inputs.fn (F := Ideal) a0 a1 a2 a3 a4 a5 a6 a7 a8 a9 a10 a11 a12 a13 = fun _ => 1#1)
    (j : Fin 32) : 0 ≤ a6 (ix1 j) := by
  -- the precondition is its last stretch applied to the variance, the last two parameters and three earlier values
  obtain ⟨v48, v49, v50, hfn⟩ : ∃ v48 v49 v50,
      Cert.Pre_finite_inputs.fn (F := Ideal) a0 a1 a2 a3 a4 a5 a6 a7 a8 a9 a10 a11 a12 a13
        = fn_part3 (F := Ideal) a6 a12 a13 v48 v49 v50 := ⟨_, _, _, rfl⟩
  have e := congrFun h ix0
  rw [hfn] at e
  exact part3_var a6 a12 a13 v48 v49 v50 e j

end Cert.Edge

end
-- ==== Proof.lean ====
/-
  The certificate: an edge layer of an equivariant graph network over 3,200,000 edges and 100,000 nodes, computed by a
  kernel on blocks of 2,000 edges, against its whole-array reference.

  Both programs gather the two endpoint coordinate rows of every edge, form the squared distance and the inner product,
  squash each by ψ(t) = sign t · log(1 + |t|), run a small multi-layer map (a 2 → 32 linear layer, an affine
  normalisation, max with 0, a 32 → 32 layer with bias and max with 0, a logistic gate) to the edge's 32-feature message,
  and from the message a scalar that scales the coordinate difference, clamped to [-100, 100]; the host then adds to every
  node the mean update of the edges that leave it. Read over the extended reals, with every operation exact and a change of
  float format the identity, the two programs are the same function of their arguments except for one spelling: the
  normalisation's scale is gain · (variance + ε)^(-1/2) in the kernel and gain / √(variance + ε) in the reference. These
  agree wherever variance + ε > 0; below zero the reference's square root has no value, so the claim is stated over
  variances ≥ 0 (with ε > 0 that is enough), which the precondition now says.

  The frames of the two kernel programs are the generated ones; the reference's frame is its generated run with the
  results dropped. The two ledger entries are the sign-bit rule's statement. For the value claim the kernel's run is read
  off its frame — the two result arrays are, row by row, the edge layer of the gathered coordinates, and the host lines after
  the region are the closing scatter-mean of the update array — and the reference's generated run is read stage by stage
  to the same functions with the quotient spelling, which the non-negative variance turns into the product spelling.
-/
import proofs.«161814_j936302870591_1_alg».proof.Defs
import proofs.«161814_j936302870591_1_alg».proof.Proof.Gen.Kernel
import proofs.«161814_j936302870591_1_alg».proof.Proof.Gen.Kernel.Skeleton
import proofs.«161814_j936302870591_1_alg».proof.Proof.Gen.Kernel.Launch
import proofs.«161814_j936302870591_1_alg».proof.Proof.Gen.Kernel.Points
import proofs.«161814_j936302870591_1_alg».proof.Proof.Gen.Kernel.Frame
import proofs.«161814_j936302870591_1_alg».proof.Proof.Gen.KernelIdeal
import proofs.«161814_j936302870591_1_alg».proof.Proof.Gen.KernelIdeal.Skeleton
import proofs.«161814_j936302870591_1_alg».proof.Proof.Gen.KernelIdeal.Launch
import proofs.«161814_j936302870591_1_alg».proof.Proof.Gen.KernelIdeal.Points
import proofs.«161814_j936302870591_1_alg».proof.Proof.Gen.KernelIdeal.Frame
import proofs.«161814_j936302870591_1_alg».proof.Proof.Gen.ReferenceIdeal
import proofs.«161814_j936302870591_1_alg».proof.Proof.Gen.Pre_finite_inputs
import proofs.«161814_j936302870591_1_alg».proof.Proof.Gen.ReferenceIdeal.Run
import proofs.«161814_j936302870591_1_alg».proof.Proof.Gen.ReferenceIdeal.Read
import proofs.«161814_j936302870591_1_alg».proof.Proof.KernelTail
import proofs.«161814_j936302870591_1_alg».proof.Proof.Bridge
import proofs.«161814_j936302870591_1_alg».proof.Proof.PreVar
import Idealize.ShloMosaic.Adequacy
import Idealize.ShloMosaic.Init

noncomputable section

namespace Cert.Proof

open Idealize.ShloMosaic Idealize.ShloMosaic.ValueIdx Idealize.SL.Sem Cert.Edge

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote the two reads of a sign bit (one per squashed invariant): the rule's statement, twice. -/
theorem preserves : Cert.preserves_Kernel_KernelIdeal :=
  ⟨IdealRules.sign_bit.statement _ _, IdealRules.sign_bit.statement _ _⟩

/-- Both idealized programs end with the new node coordinates at the closing scatter-mean of the edge layer's update array
    and the messages at the edge layer's message array, the scale spelt as a product. -/
theorem algebraic : Cert.algebraic_KernelIdeal_ReferenceIdeal := by
  intro m ρ m' ρ' hpre hagree
  refine ⟨fun c => nodeTail (m ((c.tc : Thread Cert.KernelIdeal.nD Cert.KernelIdeal.τ).loc Cert.KernelIdeal.main_arg0)) (srcOf (m ((c.tc : Thread Cert.KernelIdeal.nD Cert.KernelIdeal.τ).loc Cert.KernelIdeal.main_arg1))) (updOut scaleK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))),
    fun c => msgOut scaleK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    Cert.KernelIdeal.Arrays.run_values m ρ, ?_⟩
  refine (θ_run Cert.ReferenceIdeal.defs _ _).mono (fun r h c => ?_) (Cert.ReferenceIdeal.Value.run (F := Ideal) m' ρ')
  obtain ⟨h89, h65, hargs⟩ := h c
  obtain ⟨e0, e1, e2, e3, e4, e5, e6, e7, e8, e9, e10, e11, e12, e13⟩ := hagree c
  -- the precondition: the variance is entrywise non-negative
  have hv : ∀ j : Fin 32, (0 : EReal) ≤ ((m ((c.tc : Thread Cert.KernelIdeal.nD Cert.KernelIdeal.τ).loc Cert.KernelIdeal.main_arg6)) : FVec Ideal Cert.KernelIdeal.S32 .f32) (ix1 j) :=
    fun j => var_nonneg _ _ _ _ _ _ _ _ _ _ _ _ _ _ (hpre c) j
  refine ⟨?_, ?_, hargs⟩
  · rw [h89, Cert.ReferenceIdeal.Read.val_main_v89_eq, Cert.ReferenceIdeal.Bridge.tail_eq, Cert.ReferenceIdeal.Bridge.upd_eq,
      e0, e1, e2, e3, e4, e5, e6, e7, e8, e9, e10, e11, e12, e13]
    unfold updOut
    rw [updAt_scale _ _ _ _ _ _ _ _ _ _ _ _ _ _ hv]
  · rw [h65, Cert.ReferenceIdeal.Read.val_main_v65_eq, Cert.ReferenceIdeal.Bridge.msg_eq, e0, e1, e2, e3, e4, e5, e6, e7, e8, e12, e13]
    unfold msgOut
    rw [msgAt_scale _ _ _ _ _ _ _ _ _ _ _ hv]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
